-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x128 : Shape := ⟨2, ![10000, 128]⟩
abbrev S10000x1 : Shape := ⟨2, ![10000, 1]⟩
abbrev S1600000x128 : Shape := ⟨2, ![1600000, 128]⟩
abbrev S1x128 : Shape := ⟨2, ![1, 128]⟩
abbrev S100000x64 : Shape := ⟨2, ![100000, 64]⟩
abbrev S10000x64 : Shape := ⟨2, ![10000, 64]⟩
abbrev S1600000x64 : Shape := ⟨2, ![1600000, 64]⟩
abbrev S1x64 : Shape := ⟨2, ![1, 64]⟩

abbrev nBuf : Space → Nat
  | .hbm => 61
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S1x64, .f32⟩
  | .hbm, ⟨60, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S128x64, .f32⟩
  | .local _ .vmem, ⟨17, _⟩ => ⟨S10000x1, .f32⟩
  | .local _ .vmem, ⟨18, _⟩ => ⟨S10000x1, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S1600000, .f32⟩
  | .hbm, ⟨55, _⟩ => ⟨S_, .f32⟩
  | .hbm, ⟨56, _⟩ => ⟨S100000, .f32⟩
  | .hbm, ⟨57, _⟩ => ⟨S1600000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S_, .f32⟩
  | .hbm, ⟨63, _⟩ => ⟨S1600000, .f32⟩
  | .hbm, ⟨64, _⟩ => ⟨S_, .f32⟩
  | .hbm, ⟨65, _⟩ => ⟨S100000, .f32⟩
  | .hbm, ⟨66, _⟩ => ⟨S1600000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x128, .f32⟩
  | .hbm, ⟨84, _⟩ => ⟨S_, .f32⟩
  | .hbm, ⟨85, _⟩ => ⟨S100000x128, .f32⟩
  | .hbm, ⟨86, _⟩ => ⟨S1600000x1, .i32⟩
  | .hbm, ⟨87, _⟩ => ⟨S100000x128, .f32⟩
  | .hbm, ⟨88, _⟩ => ⟨S100000, .f32⟩
  | .hbm, ⟨89, _⟩ => ⟨S100000x1, .f32⟩
  | .hbm, ⟨90, _⟩ => ⟨S100000x128, .f32⟩
  | .hbm, ⟨91, _⟩ => ⟨S100000x128, .f32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_cst : Ref sig .tc := ⟨.hbm, 50, rfl⟩
abbrev main_call0_v0 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_cst_11 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_13 : Ref sig .tc := ⟨.hbm, 75, rfl⟩
abbrev main_v51 : Ref sig .tc := ⟨.hbm, 76, rfl⟩
abbrev main_v52 : Ref sig .tc := ⟨.hbm, 77, rfl⟩
abbrev main_c_14 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_15 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The two programs as mathematics, in coordinates. Nodes are numbered below 100000 and edges below 1600000. An edge `e`
  reads the node row `srcRow gi e` (its gather index read signed and clamped into range) and lands on node `n` exactly
  when its scatter index, read signed, is `n` (`inEdges si n`; an index outside the range lands nowhere). `aggr` sums, for
  each node and each feature column, the rows its incoming edges read.

  One graph-convolution layer is written in two arrangements. `kLayer` multiplies by the weights first, scales each row by
  `ro`, aggregates, scales each row by `ri` and adds the bias. `rLayer` scales by `ro`, aggregates, scales by `ri`, and
  only then multiplies by the weights and adds the bias. Over the reals the two agree: aggregation acts on the node
  axis and the weights on the feature axis, and the row scalings are diagonal, so the finite sums exchange
  (`layer_eq`). On the extended reals the exchange needs every entry to be a real number, which is what the
  hypotheses of `layer_eq` and `out_eq` say.
-/
import Idealize.ShloMosaic.PureOps.Ideal
import Idealize.ShloMosaic.Lib.ValueIdx

noncomputable section

open scoped BigOperators

namespace Cert.Gcn

open Idealize.ShloMosaic Idealize.ShloMosaic.ValueIdx

/-- An array of rank two as a function of its two coordinates. -/
def ofArr {N D : Nat} (A : (⟨2, ![N, D]⟩ : Shape).Idx → EReal) : Fin N → Fin D → EReal := fun n c => A (ix2 n c)
/-- A function of two coordinates as an array of rank two. -/
def toArr {N D : Nat} (f : Fin N → Fin D → EReal) : (⟨2, ![N, D]⟩ : Shape).Idx → EReal :=
  fun i => f ⟨(i 0).val, idx2_lt0 i⟩ ⟨(i 1).val, idx2_lt1 i⟩
/-- A one-column array as a function of the row. -/
def col {N : Nat} (A : (⟨2, ![N, 1]⟩ : Shape).Idx → EReal) : Fin N → EReal := fun n => A (ix2 n 0)
/-- A one-row array as a function of the column. -/
def row {D : Nat} (A : (⟨2, ![1, D]⟩ : Shape).Idx → EReal) : Fin D → EReal := fun c => A (ix2 0 c)
/-- A rank-one array as a function of its coordinate. -/
def vec {D : Nat} (A : (⟨1, ![D]⟩ : Shape).Idx → EReal) : Fin D → EReal := fun c => A (ix1 c)

theorem toArr_ix2 {N D : Nat} (f : Fin N → Fin D → EReal) (n : Fin N) (c : Fin D) : toArr f (ix2 n c) = f n c := rfl
theorem ofArr_toArr {N D : Nat} (f : Fin N → Fin D → EReal) : ofArr (toArr f) = f := rfl
theorem toArr_ofArr {N D : Nat} (A : (⟨2, ![N, D]⟩ : Shape).Idx → EReal) : toArr (ofArr A) = A := by
  funext i; exact congrArg A (eq_ix2 i).symm

/-- The node row edge `e` reads: its gather index, read signed, clamped into `[0, 99999]`. -/
def srcRow (gi : IVec ⟨2, ![1600000, 1]⟩ 32) (e : Fin 1600000) : Fin 100000 :=
  ⟨min (gi (ix2 e 0)).toInt.toNat 99999, by omega⟩
/-- The edges that land on node `n`: those whose scatter index, read signed, is `n`. -/
def inEdges (si : IVec ⟨2, ![1600000, 1]⟩ 32) (n : Fin 100000) : Finset (Fin 1600000) :=
  Finset.univ.filter fun e => (si (ix2 e 0)).toInt = (n.val : Int)

variable {D : Nat}

/-- Aggregation: node `n`, column `c` receives the sum over its incoming edges of the rows they read. -/
def aggr (gi si : IVec ⟨2, ![1600000, 1]⟩ 32) (M : Fin 100000 → Fin D → EReal) (n : Fin 100000) (c : Fin D) : EReal :=
  ∑ e ∈ inEdges si n, M (srcRow gi e) c
/-- Rows times weights, each row then scaled. -/
def msC (X : Fin 100000 → Fin 128 → EReal) (W : Fin 128 → Fin D → EReal) (s : Fin 100000 → EReal)
    (n : Fin 100000) (c : Fin D) : EReal := (∑ k : Fin 128, X n k * W k c) * s n
/-- Each row scaled, then the bias added. -/
def sbaC (Y : Fin 100000 → Fin D → EReal) (s : Fin 100000 → EReal) (b : Fin D → EReal) (n : Fin 100000) (c : Fin D) : EReal :=
  Y n c * s n + b c
/-- The positive part, entry by entry. -/
def relu (Y : Fin 100000 → Fin D → EReal) (n : Fin 100000) (c : Fin D) : EReal := max (Y n c) 0

/-- A layer with the weights applied BEFORE aggregation. -/
def kLayer (gi si : IVec ⟨2, ![1600000, 1]⟩ 32) (ro ri : Fin 100000 → EReal) (X : Fin 100000 → Fin 128 → EReal)
    (W : Fin 128 → Fin D → EReal) (b : Fin D → EReal) : Fin 100000 → Fin D → EReal :=
  sbaC (aggr gi si (msC X W ro)) ri b
/-- A layer with the weights applied AFTER aggregation. -/
def rLayer (gi si : IVec ⟨2, ![1600000, 1]⟩ 32) (ro ri : Fin 100000 → EReal) (X : Fin 100000 → Fin 128 → EReal)
    (W : Fin 128 → Fin D → EReal) (b : Fin D → EReal) (n : Fin 100000) (c : Fin D) : EReal :=
  (∑ k : Fin 128, (aggr gi si (fun n' k' => X n' k' * ro n') n k * ri n) * W k c) + b c

/-- Two layers with a positive part between them, weights first. -/
def kOut (gi si : IVec ⟨2, ![1600000, 1]⟩ 32) (ro ri : Fin 100000 → EReal) (X : Fin 100000 → Fin 128 → EReal)
    (W1 : Fin 128 → Fin 128 → EReal) (b1 : Fin 128 → EReal) (W2 : Fin 128 → Fin 64 → EReal) (b2 : Fin 64 → EReal) :
    Fin 100000 → Fin 64 → EReal :=
  kLayer gi si ro ri (relu (kLayer gi si ro ri X W1 b1)) W2 b2
/-- Two layers with a positive part between them, aggregation first. -/
def rOut (gi si : IVec ⟨2, ![1600000, 1]⟩ 32) (ro ri : Fin 100000 → EReal) (X : Fin 100000 → Fin 128 → EReal)
    (W1 : Fin 128 → Fin 128 → EReal) (b1 : Fin 128 → EReal) (W2 : Fin 128 → Fin 64 → EReal) (b2 : Fin 64 → EReal) :
    Fin 100000 → Fin 64 → EReal :=
  rLayer gi si ro ri (relu (rLayer gi si ro ri X W1 b1)) W2 b2

/-- Every entry is a real number. -/
def Real1 {ι : Type} (f : ι → EReal) : Prop := ∀ i, ∃ r : ℝ, f i = (r : EReal)
/-- Every entry is a real number. -/
def Real2 {ι κ : Type} (f : ι → κ → EReal) : Prop := ∀ i k, ∃ r : ℝ, f i k = (r : EReal)

end Cert.Gcn

end
-- ==== Proof.SpecLaws.lean ====
/-
  The two arrangements of a layer agree when every entry is a real number: both are then the real number
  `(∑ over incoming edges e, ∑ over k, X (row e) k · W k c · ro (row e)) · ri n + b c`, the finite sums exchanged and the
  factors regrouped. A layer of real entries has real entries, and so has its positive part, which carries the hypothesis
  from the first layer to the second.
-/
import proofs.«169578_j755914244198_1_alg».proof.Proof.Spec

noncomputable section

open scoped BigOperators

namespace Cert.Gcn

open Idealize.ShloMosaic Idealize.ShloMosaic.ValueIdx

variable {D : Nat}

/-- The coercion of the reals into the extended reals commutes with finite sums. -/
theorem coe_sum {ι : Type} (s : Finset ι) (f : ι → ℝ) : ((∑ i ∈ s, f i : ℝ) : EReal) = ∑ i ∈ s, (f i : EReal) := by
  classical
  refine Finset.induction_on s ?_ ?_
  · rw [Finset.sum_empty, Finset.sum_empty, EReal.coe_zero]
  · intro a t ha ih
    rw [Finset.sum_insert ha, Finset.sum_insert ha, EReal.coe_add, ih]

/-- The exchange over the reals: the sum over the edges and the sum over the inner index commute, and the two row
    scalings pass through the weights. -/
theorem real_exchange {ε ν : Type} (E : Finset ε) (s : ε → ν) (x : ν → Fin 128 → ℝ) (w : Fin 128 → ℝ) (ro : ν → ℝ)
    (ri b : ℝ) :
    (∑ e ∈ E, (∑ k : Fin 128, x (s e) k * w k) * ro (s e)) * ri + b
      = (∑ k : Fin 128, ((∑ e ∈ E, x (s e) k * ro (s e)) * ri) * w k) + b := by
  congr 1
  simp only [Finset.sum_mul]
  rw [Finset.sum_comm]
  refine Finset.sum_congr rfl fun k _ => Finset.sum_congr rfl fun e _ => ?_
  ring

/-- Weights before or after aggregation: the same layer, on real entries. -/
theorem layer_eq (gi si : IVec ⟨2, ![1600000, 1]⟩ 32) {ro ri : Fin 100000 → EReal} {X : Fin 100000 → Fin 128 → EReal}
    {W : Fin 128 → Fin D → EReal} {b : Fin D → EReal}
    (hro : Real1 ro) (hri : Real1 ri) (hX : Real2 X) (hW : Real2 W) (hb : Real1 b) :
    kLayer gi si ro ri X W b = rLayer gi si ro ri X W b := by
  choose ro' hro' using hro
  choose ri' hri' using hri
  choose x hx using hX
  choose w hw using hW
  choose b' hb' using hb
  funext n c
  simp only [kLayer, rLayer, sbaC, aggr, msC, hro', hri', hx, hw, hb']
  simp only [← EReal.coe_mul, ← coe_sum, ← EReal.coe_add]
  rw [EReal.coe_eq_coe_iff]
  exact real_exchange (inEdges si n) (srcRow gi) x (fun k => w k c) ro' (ri' n) (b' c)

/-- A layer of real entries has real entries. -/
theorem kLayer_real (gi si : IVec ⟨2, ![1600000, 1]⟩ 32) {ro ri : Fin 100000 → EReal} {X : Fin 100000 → Fin 128 → EReal}
    {W : Fin 128 → Fin D → EReal} {b : Fin D → EReal}
    (hro : Real1 ro) (hri : Real1 ri) (hX : Real2 X) (hW : Real2 W) (hb : Real1 b) :
    Real2 (kLayer gi si ro ri X W b) := by
  choose ro' hro' using hro
  choose ri' hri' using hri
  choose x hx using hX
  choose w hw using hW
  choose b' hb' using hb
  intro n c
  refine ⟨(∑ e ∈ inEdges si n, (∑ k : Fin 128, x (srcRow gi e) k * w k c) * ro' (srcRow gi e)) * ri' n + b' c, ?_⟩
  simp only [kLayer, sbaC, aggr, msC, hro', hri', hx, hw, hb']
  simp only [← EReal.coe_mul, ← coe_sum, ← EReal.coe_add]

/-- The positive part of real entries is real. -/
theorem relu_real {Y : Fin 100000 → Fin D → EReal} (h : Real2 Y) : Real2 (relu Y) := by
  intro n c
  obtain ⟨r, hr⟩ := h n c
  rcases le_total r 0 with h0 | h0
  · refine ⟨0, ?_⟩
    have h0' : (r : EReal) ≤ 0 := EReal.coe_le_coe_iff.2 h0
    simp only [relu, hr]
    rw [EReal.coe_zero]
    exact max_eq_right h0'
  · refine ⟨r, ?_⟩
    have h0' : (0 : EReal) ≤ (r : EReal) := EReal.coe_le_coe_iff.2 h0
    simp only [relu, hr]
    exact max_eq_left h0'

/-- The two-layer network in its two arrangements, on real inputs. -/
theorem out_eq (gi si : IVec ⟨2, ![1600000, 1]⟩ 32) {ro ri : Fin 100000 → EReal} {X : Fin 100000 → Fin 128 → EReal}
    {W1 : Fin 128 → Fin 128 → EReal} {b1 : Fin 128 → EReal} {W2 : Fin 128 → Fin 64 → EReal} {b2 : Fin 64 → EReal}
    (hro : Real1 ro) (hri : Real1 ri) (hX : Real2 X) (hW1 : Real2 W1) (hb1 : Real1 b1) (hW2 : Real2 W2) (hb2 : Real1 b2) :
    kOut gi si ro ri X W1 b1 W2 b2 = rOut gi si ro ri X W1 b1 W2 b2 := by
  unfold kOut rOut
  rw [layer_eq gi si hro hri hX hW1 hb1]
  exact layer_eq gi si hro hri (relu_real (by rw [← layer_eq gi si hro hri hX hW1 hb1]; exact kLayer_real gi si hro hri hX hW1 hb1)) hW2 hb2

end Cert.Gcn

end
-- ==== Proof.KStage.lean ====
/-
  The host stretches of the kernel's program as functions of the arrays they read, operation for operation: the row
  scalings (the reciprocal square root of each node's clamped out- or in-degree, kept as a one-column array), the
  gather and scatter index columns, the aggregation of a node-major array (gather the rows the edges read, then add
  each into the row its edge lands on), and a bias laid out as one row.
-/
import proofs.«169578_j755914244198_1_alg».proof.Proof.Gen.KernelIdeal

noncomputable section

namespace Cert.KernelIdeal.Stage

open Cert.KernelIdeal Idealize.ShloMosaic Idealize.ShloMosaic.TcCoe
open Facts₀ Facts

variable {F : FTy → Type} [FloatOps F]

/-- The reciprocal square root of each node's degree (the number of entries of `x` naming it, at least one), as a column. -/
def rsDeg (x : IVec S1600000 32) : FVec F S100000x1 .f32 :=
  broadcastInDim S100000x1 ![0] bcast_S100000_S100000x1_0
    (Host.rsqrt (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 x)
        (broadcastInDim S1600000 ![] bcast_S_S1600000 (constant S_ .f32 0x3F800000#32)))
      (broadcastInDim S100000 ![] bcast_S_S100000 (constant S_ .f32 0x3F800000#32))))

/-- The gather index column: a negative source index wrapped once by the node count. -/
def gIdx (x1 : IVec S1600000 32) : IVec S1600000x1 32 :=
  broadcastInDim S1600000x1 ![0] bcast_S1600000_S1600000x1_0
    (select (cmpi .slt x1 (broadcastInDim S1600000 ![] bcast_S_S1600000 (constantI S_ 32 0#32)))
      (addi x1 (broadcastInDim S1600000 ![] bcast_S_S1600000 (constantI S_ 32 100000#32))) x1)

/-- The scatter index column. -/
def sIdx (x2 : IVec S1600000 32) : IVec S1600000x1 32 :=
  broadcastInDim S1600000x1 ![0] bcast_S1600000_S1600000x1_0 x2

/-- Aggregation of a 128-column node-major array. -/
def agg128 (x1 x2 : IVec S1600000 32) (M : FVec F S100000x128 .f32) : FVec F S100000x128 .f32 :=
  Host.scatterAdd scatter_S100000x128_S1600000x1_S1600000x128_1_0_0_1
    (broadcastInDim S100000x128 ![] bcast_S_S100000x128 (constant S_ .f32 0x00000000#32))
    (sIdx x2)
    (Host.gather gather_S100000x128_S1600000x1_S1600000x128_1_0_n_n_0_1_1128 M (gIdx x1))

/-- Aggregation of a 64-column node-major array. -/
def agg64 (x1 x2 : IVec S1600000 32) (M : FVec F S100000x64 .f32) : FVec F S100000x64 .f32 :=
  Host.scatterAdd scatter_S100000x64_S1600000x1_S1600000x64_1_0_0_1
    (broadcastInDim S100000x64 ![] bcast_S_S100000x64 (constant S_ .f32 0x00000000#32))
    (sIdx x2)
    (Host.gather gather_S100000x64_S1600000x1_S1600000x64_1_0_n_n_0_1_164 M (gIdx x1))

/-- A 128-entry bias as one row. -/
def biasRow128 (x4 : FVec F S128 .f32) : FVec F S1x128 .f32 := shapeCast S1x128 x4 shapeCasts_S128_S1x128
/-- A 64-entry bias as one row. -/
def biasRow64 (x6 : FVec F S64 .f32) : FVec F S1x64 .f32 := shapeCast S1x64 x6 shapeCasts_S64_S1x64

end Cert.KernelIdeal.Stage

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.Reg0.lean ====
/-
  What the first launch leaves in its output array: row `n` of the input times the weights, the row then scaled by the
  entry of the scaling column at `n`. The launch walks ten blocks of ten thousand rows; block `t` of the result is
  computed from block `t` of the input and of the scaling column and from the whole weight matrix, and the ten blocks tile
  the array.

  The body's arithmetic is read at an entry `(p, q)` of a block first (`payload_apply`): the product with the zero
  accumulator is the sum over the 128 positions of the contracted axis, the narrowing of the operands is the identity on
  the extended reals, and the scaling column spread over the 128 columns reads its one entry of row `p`. Then the three
  input blocks are read where the index maps put them in their arrays (`block_indices`, `flushed_block`): row `p` of
  block `t` is row `10000 t + p` of the array, and the weights' one block is the whole matrix. So each point writes back
  the block of ONE function of the whole arrays, and since every row lies in the block of exactly the point
  `row / 10000` (`covered`), the array ends holding that function.
-/
import proofs.«169578_j755914244198_1_alg».proof.Proof.Gen.KernelIdeal.Frame
import proofs.«169578_j755914244198_1_alg».proof.Proof.Spec
import proofs.«169578_j755914244198_1_alg».proof.Proof.LibContraction
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegVal

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

namespace Launch0

open Cert.Lib.Contraction

/-! ## The body's arithmetic at an entry of a block -/

/-- The offsets of the body's whole-block accesses are zero on both axes. -/
theorem zero_offsets : (![0, 0] : Fin 2 → Nat) = fun _ => 0 := funext fun a => by fin_cases a <;> rfl

/-- A one-column array `[a, 1]` spread over `b` columns reads, at `(p, q)`, the column's entry of row `p`. -/
theorem column_broadcast_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At position `k` of the contracted axis the product's left operand is read at row `p`, column `k`. -/
theorem product_lhs_index (p : Fin 10000) (q k : Fin 128) :
    dot_S10000x128_S128x128_S10000x128_1_0_0_1_n_n.lhsIdx (ix2 p q)
        ((contrFin dot_S10000x128_S128x128_S10000x128_1_0_0_1_n_n (cl := 1) rfl 128 rfl).symm k) = ix2 p k :=
  funext fun a => Fin.ext (by
    match a with
    | ⟨0, _⟩ => exact lhs_free dot_S10000x128_S128x128_S10000x128_1_0_0_1_n_n (nl := 0) rfl rfl (ix2 p q) _ (by decide)
    | ⟨1, _⟩ => exact lhs_contracted dot_S10000x128_S128x128_S10000x128_1_0_0_1_n_n (cl := 1) rfl 128 rfl (ix2 p q) k)

/-- At position `k` of the contracted axis the product's right operand is read at row `k`, column `q`. -/
theorem product_rhs_index (p : Fin 10000) (q k : Fin 128) :
    dot_S10000x128_S128x128_S10000x128_1_0_0_1_n_n.rhsIdx (ix2 p q)
        ((contrFin dot_S10000x128_S128x128_S10000x128_1_0_0_1_n_n (cl := 1) rfl 128 rfl).symm k) = ix2 k q :=
  funext fun a => Fin.ext (by
    match a with
    | ⟨0, _⟩ => exact rhs_contracted dot_S10000x128_S128x128_S10000x128_1_0_0_1_n_n (cl := 1) (cr := 0) rfl rfl 128 rfl (ix2 p q) k
    | ⟨1, _⟩ => exact rhs_free dot_S10000x128_S128x128_S10000x128_1_0_0_1_n_n (nl := 0) (nr := 1) rfl rfl rfl rfl (ix2 p q) _ (by decide))

/-- THE BODY AT `(p, q)`: the sum over `k` of row `p` of the first block times column `q` of the second, times the third
    block's entry of row `p`. -/
theorem payload_apply (x0 : Vec Ideal S10000x128 .f32) (x1 : Vec Ideal S128x128 .f32) (x2 : Vec Ideal S10000x1 .f32)
    (p : Fin 10000) (q : Fin 128) :
    k0_pay1 (F := Ideal) x0 x1 x2 (ix2 p q) = (∑ k : Fin 128, x0 (ix2 p k) * x1 (ix2 k q)) * x2 (ix2 p (0 : Fin 1)) := by
  unfold k0_pay1
  refine (mulf_apply _ _ _).trans ?_
  refine congrArg₂ (· * ·) ?_ ?_
  · refine (Ideal.matmul_constant_zero_apply dot_S10000x128_S128x128_S10000x128_1_0_0_1_n_n none _ _ (ix2 p q)).trans ?_
    refine (sum_contr dot_S10000x128_S128x128_S10000x128_1_0_0_1_n_n (cl := 1) rfl 128 rfl _).trans ?_
    refine Finset.sum_congr rfl fun k _ => ?_
    rw [product_lhs_index, product_rhs_index]
    rfl
  · rw [shapeCast_self]
    exact column_broadcast_apply x2 _ p q

/-- Entry `(p, q)` of the block computed from blocks whose row `p` is row `n` of the input array and of the scaling
    column, and whose weights are the weight array's, is the entry `(n, q)` of the whole product with its rows scaled. -/
theorem block_value (x0 : Vec Ideal S10000x128 .f32) (x1 : Vec Ideal S128x128 .f32) (x2 : Vec Ideal S10000x1 .f32)
    (A0 : S100000x128.Idx → EReal) (A1 : S128x128.Idx → EReal) (A2 : S100000x1.Idx → EReal)
    (n : Fin 100000) (p : Fin 10000) (q : Fin 128)
    (h0 : ∀ k : Fin 128, x0 (ix2 p k) = A0 (ix2 n k))
    (h1 : ∀ k : Fin 128, x1 (ix2 k q) = A1 (ix2 k q))
    (h2 : x2 (ix2 p (0 : Fin 1)) = A2 (ix2 n (0 : Fin 1))) :
    k0_pay1 (F := Ideal) x0 x1 x2 (ix2 p q) = toArr (msC (ofArr A0) (ofArr A1) (col A2)) (ix2 n q) := by
  rw [payload_apply, toArr_ix2, h2]
  unfold msC ofArr col
  exact congrArg (· * A2 (ix2 n (0 : Fin 1))) (Finset.sum_congr rfl fun k _ => by rw [h0 k, h1 k])

/-! ## From the blocks to the array -/

/-- The index maps over the ten points: the input rows, the scaling column and the output move together, block row `t`
    at point `t`; the weights stay at block `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The whole product with its rows scaled, as one function of the arrays the launch finds. -/
abbrev product (c : Dev nD) : S100000x128.Idx → EReal :=
  toArr (msC (ofArr (V c main_arg0 : S100000x128.Idx → EReal)) (ofArr (V c main_arg3 : S128x128.Idx → EReal))
    (col (V c main_v13 : S100000x1.Idx → EReal)))

/-- WHAT POINT `t` WRITES BACK is block `t` of `product`: entry `(p, q)` of the block is computed from row
    `10000 t + p` of the input and of the scaling column and from the whole weight matrix, and sits at row
    `10000 t + p`, column `q` of the output. -/
theorem flushed_block (c : Dev nD) (t : Fin cfg0.N) :
    (dat0 (F := Ideal) V c).flushed 3 t = ((cfg0.win 3).blk t).view.read (Elt Ideal) (product V c) := by
  show (cfg0.win 3).cut (grid0.coords t) ((dat0 (F := Ideal) V c).after 3 t) = _
  rw [after0_3]
  unfold out0_3
  rw [View.canon_unit_zero zero_offsets]
  simp only [View.ld_unit_zero (S := S10000x128) zero_offsets, View.ld_unit_zero (S := S128x128) zero_offsets,
    View.ld_unit_zero (S := S10000x1) zero_offsets]
  obtain ⟨e00, e01, e10, e11, e20, e21, e30, e31⟩ := block_indices t
  funext j
  obtain ⟨p, q, rfl⟩ : ∃ (p : Fin 10000) (q : Fin 128), j = ix2 p q := ⟨j 0, j 1, eq_ix2 j⟩
  have hp : p.val < 10000 := p.isLt
  have ht : t.val < 10 := t.isLt
  show k0_pay1 (F := Ideal) (iblk0 V c 0 t) (iblk0 V c 1 t) (iblk0 V c 2 t) (ix2 p q)
    = product V c (((cfg0.win 3).blk t).view.emb (ix2 p q))
  refine (block_value (iblk0 V c 0 t) (iblk0 V c 1 t) (iblk0 V c 2 t) (V c main_arg0) (V c main_arg3) (V c main_v13)
    ⟨t.val * 10000 + p.val, by omega⟩ p q (fun k => ?_) (fun k => ?_) ?_).trans ?_
  · show V c main_arg0 (((cfg0.win 0).blk t).view.emb (ix2 p k)) = _
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  · show V c main_arg3 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show V c main_v13 (((cfg0.win 2).blk t).view.emb (ix2 p (0 : Fin 1))) = _
    refine congrArg _ (funext fun a => Fin.ext ?_)
    match a with
    | ⟨0, _⟩ => show win0_2.index t (0 : Fin 2) * 10000 + 1 * p.val = t.val * 10000 + p.val; omega
    | ⟨1, _⟩ => show win0_2.index t (1 : Fin 2) * 1 + 1 * 0 = 0; omega
  · refine congrArg (product V c) (funext fun a => Fin.ext ?_)
    match a with
    | ⟨0, _⟩ => show t.val * 10000 + p.val = win0_3.index t (0 : Fin 2) * 10000 + 1 * p.val; omega
    | ⟨1, _⟩ => show q.val = win0_3.index t (1 : Fin 2) * 128 + 1 * q.val; omega

/-- An index of the output array is in point `t`'s block iff each coordinate is in the block's range on its axis. -/
theorem mem_block (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v16).slice (win0_3.rect t)).set ↔ _
  rw [View.set_slice_whole, Rect.mem_set_unit]
  exact Iff.rfl

/-- Row `r` lies in the block of point `r / 10000`: the ten blocks tile the array. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by show (i 0).val / 10000 < 10; omega⟩, rfl⟩
  obtain ⟨-, -, -, -, -, -, e30, e31⟩ := block_indices t
  refine ⟨t, flush0_3 t, ?_⟩
  rw [mem_block]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

end Launch0

variable (V : (c : Dev nD) → (b : Ref sig .tc) → Buf (Elt Ideal) ((c : Thread nD τ).loc b))

/-- The output array of launch 0 after its ten points, from the arrays as the launch finds them. -/
theorem final0 (c : Dev nD) :
    (dat0 (F := Ideal) V c).arrAt 3 cfg0.N
      = (toArr (msC (ofArr (V c main_arg0 : S100000x128.Idx → EReal)) (ofArr (V c main_arg3 : S128x128.Idx → EReal))
          (col (V c main_v13 : S100000x1.Idx → EReal))) : S100000x128.Idx → EReal) :=
  (dat0 (F := Ideal) V c).arrAt_eq_of_cover 3 (Launch0.product V c) (fun t _ => Launch0.flushed_block V c t)
    Launch0.covered

end Cert.KernelIdeal.RegVal

end
-- ==== Proof.Reg1.lean ====
/-
  What the second launch leaves in its output array: each row of the aggregated array scaled by the entry of the scaling
  column at that row, the bias row added, and the positive part taken. Ten blocks of ten thousand rows tile the array.
-/
import proofs.«169578_j755914244198_1_alg».proof.Proof.Gen.KernelIdeal.Frame
import proofs.«169578_j755914244198_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegVal

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Launch1

/-! ## The body's arithmetic at one entry of a block -/

/-- An access to a whole block starts at offset zero on both axes. -/
theorem offsets_zero : (![0, 0] : Fin 2 → Nat) = fun _ => 0 := funext fun a => by fin_cases a <;> rfl

/-- A one-column array broadcast along its rows reads, at row `p` and column `q`, the column's entry at row `p`. -/
theorem colBroadcast_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's result at row `p`, column `q` of a block: the entry there times the scaling column's entry at row `p`,
    plus the bias row's entry at column `q`, and of that sum the positive part. -/
theorem pay_apply (x0 : Vec Ideal S10000x128 .f32) (x1 : Vec Ideal S10000x1 .f32) (x2 : Vec Ideal S1x128 .f32)
    (p : Fin 10000) (q : Fin 128) :
    k1_pay1 x0 x1 x2 (ix2 p q) = max (x0 (ix2 p q) * x1 (ix2 p (0 : Fin 1)) + x2 (ix2 (0 : Fin 1) q)) 0 := by
  unfold k1_pay1
  simp only [shapeCast_self]
  show max (x0 (ix2 p q) * broadcastTo S10000x128 x1 broadcasts_S10000x1_S10000x128 (ix2 p q)
      + broadcastTo S10000x128 x2 broadcasts_S1x128_S10000x128 (ix2 p q)) (Ideal.ofBits .f32 0x00000000#32) = _
  rw [colBroadcast_apply, broadcastTo_1b_ab_apply, Ideal.ofBits_zero_f32]

/-- If the first two blocks are the rows from `10000 * b` on of the aggregated array `A0` and of the scaling column `A1`,
    and the third is the bias row `A2`, then the body's result at a block entry is the scaled, biased, positive part
    of `A0` at the array entry `10000 * b` rows further down, in the same column. -/
theorem point_value (x0 : Vec Ideal S10000x128 .f32) (x1 : Vec Ideal S10000x1 .f32) (x2 : Vec Ideal S1x128 .f32)
    (A0 : S100000x128.Idx → EReal) (A1 : S100000x1.Idx → EReal) (A2 : S1x128.Idx → EReal) (b : Nat)
    (h0 : ∀ (p : Fin 10000) (q : Fin 128) (n : Fin 100000), n.val = b * 10000 + p.val → x0 (ix2 p q) = A0 (ix2 n q))
    (h1 : ∀ (p : Fin 10000) (n : Fin 100000), n.val = b * 10000 + p.val →
      x1 (ix2 p (0 : Fin 1)) = A1 (ix2 n (0 : Fin 1)))
    (h2 : ∀ q : Fin 128, x2 (ix2 (0 : Fin 1) q) = A2 (ix2 (0 : Fin 1) q))
    (j : S10000x128.Idx) (i : S100000x128.Idx) (hi0 : (i 0).val = b * 10000 + (j 0).val) (hi1 : (i 1).val = (j 1).val) :
    k1_pay1 x0 x1 x2 j = toArr (relu (sbaC (ofArr A0) (col A1) (row A2))) i := by
  obtain ⟨p, q, rfl⟩ : ∃ (p : Fin 10000) (q : Fin 128), j = ix2 p q := ⟨j 0, j 1, eq_ix2 j⟩
  obtain ⟨n, r, rfl⟩ : ∃ (n : Fin 100000) (r : Fin 128), i = ix2 n r := ⟨i 0, i 1, eq_ix2 i⟩
  have hr : r = q := Fin.ext hi1
  subst hr
  rw [pay_apply, toArr_ix2]
  show _ = max (A0 (ix2 n r) * A1 (ix2 n (0 : Fin 1)) + A2 (ix2 (0 : Fin 1) r)) 0
  rw [h0 p r n hi0, h1 p n hi0, h2 r]

/-! ## The blocks of the three inputs at a grid point -/

/-- The block indices at grid point `t`: the aggregated array, the scaling column and the output each move down one
    block of rows per point and stay in block column zero; the bias row's block is always the whole row. -/
theorem index_at : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block `t` of the aggregated array is its rows from `10000 * t` on. -/
theorem blk_0_apply (c : Dev nD) (t : Fin cfg1.N) (p : Fin 10000) (q : Fin 128) (n : Fin 100000)
    (hn : n.val = t.val * 10000 + p.val) :
    (iblk1 V c 0 t : Vec Ideal S10000x128 .f32) (ix2 p q) = (V c main_v26 : S100000x128.Idx → EReal) (ix2 n q) := by
  obtain ⟨e0, e1, -⟩ := index_at t
  unfold iblk1
  rw [View.read_apply]
  show (V c main_v26 : S100000x128.Idx → EReal) _ = (V c main_v26 : S100000x128.Idx → EReal) _
  refine congrArg (V c main_v26 : S100000x128.Idx → EReal) ?_
  funext a
  apply Fin.ext
  match a with
  | ⟨0, _⟩ => show win1_0.index t (0 : Fin 2) * 10000 + 1 * p.val = n.val; rw [e0, hn]; omega
  | ⟨1, _⟩ => show win1_0.index t (1 : Fin 2) * 128 + 1 * q.val = q.val; rw [e1]; omega

/-- Block `t` of the scaling column is its rows from `10000 * t` on. -/
theorem blk_1_apply (c : Dev nD) (t : Fin cfg1.N) (p : Fin 10000) (n : Fin 100000)
    (hn : n.val = t.val * 10000 + p.val) :
    (iblk1 V c 1 t : Vec Ideal S10000x1 .f32) (ix2 p (0 : Fin 1))
      = (V c main_v15 : S100000x1.Idx → EReal) (ix2 n (0 : Fin 1)) := by
  obtain ⟨-, -, e0, e1, -⟩ := index_at t
  unfold iblk1
  rw [View.read_apply]
  show (V c main_v15 : S100000x1.Idx → EReal) _ = (V c main_v15 : S100000x1.Idx → EReal) _
  refine congrArg (V c main_v15 : S100000x1.Idx → EReal) ?_
  funext a
  apply Fin.ext
  match a with
  | ⟨0, _⟩ => show win1_1.index t (0 : Fin 2) * 10000 + 1 * p.val = n.val; rw [e0, hn]; omega
  | ⟨1, _⟩ => show win1_1.index t (1 : Fin 2) * 1 + 1 * 0 = 0; rw [e1]

/-- The bias row's block is the bias row at every point. -/
theorem blk_2_apply (c : Dev nD) (t : Fin cfg1.N) (q : Fin 128) :
    (iblk1 V c 2 t : Vec Ideal S1x128 .f32) (ix2 (0 : Fin 1) q)
      = (V c main_v27 : S1x128.Idx → EReal) (ix2 (0 : Fin 1) q) := by
  obtain ⟨-, -, -, -, e0, e1, -⟩ := index_at t
  unfold iblk1
  rw [View.read_apply]
  show (V c main_v27 : S1x128.Idx → EReal) _ = (V c main_v27 : S1x128.Idx → EReal) _
  refine congrArg (V c main_v27 : S1x128.Idx → EReal) ?_
  funext a
  apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega

/-! ## From the blocks to the array -/

/-- What point `t` writes back is block `t` of one function of the whole arrays: the aggregated array scaled row by
    row, the bias row added, the positive part taken. -/
theorem flushed_eq (c : Dev nD) (t : Fin cfg1.N) :
    (dat1 (F := Ideal) V c).flushed 3 t = ((cfg1.win 3).blk t).view.read (Elt Ideal)
      (toArr (relu (sbaC (ofArr (V c main_v26 : S100000x128.Idx → EReal)) (col (V c main_v15 : S100000x1.Idx → EReal))
          (row (V c main_v27 : S1x128.Idx → EReal)))) : S100000x128.Idx → EReal) := by
  show (cfg1.win 3).cut (grid1.coords t) ((dat1 V c).after 3 t) = _
  rw [after1_3]
  unfold out1_3
  rw [View.canon_unit_zero offsets_zero]
  simp only [View.ld_unit_zero (S := S10000x128) offsets_zero, View.ld_unit_zero (S := S10000x1) offsets_zero,
    View.ld_unit_zero (S := S1x128) offsets_zero]
  obtain ⟨-, -, -, -, -, -, e0, e1⟩ := index_at t
  funext j
  refine point_value (iblk1 V c 0 t) (iblk1 V c 1 t) (iblk1 V c 2 t) (V c main_v26 : S100000x128.Idx → EReal)
    (V c main_v15 : S100000x1.Idx → EReal) (V c main_v27 : S1x128.Idx → EReal) t.val
    (fun p q n hn => blk_0_apply V c t p q n hn) (fun p n hn => blk_1_apply V c t p n hn) (fun q => blk_2_apply V c t q)
    j (((cfg1.win 3).blk t).view.emb j) ?_ ?_
  · show win1_3.index t (0 : Fin 2) * 10000 + 1 * (j 0).val = t.val * 10000 + (j 0).val
    rw [e0]; omega
  · show win1_3.index t (1 : Fin 2) * 128 + 1 * (j 1).val = (j 1).val
    rw [e1]; omega

/-- An entry of the output array lies in point `t`'s block iff each coordinate lies in the block's range on its axis. -/
theorem mem_blk (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v28).slice (win1_3.rect t)).set ↔ _
  rw [View.set_slice_whole, Rect.mem_set_unit]
  exact Iff.rfl

/-- Every entry of the output array lies in some point's block: row `r` in the block of point `r / 10000`. -/
theorem cover (i : S100000x128.Idx) :
    ∃ t : Fin cfg1.N, (cfg1.win 3).flush t = true ∧ i ∈ ((cfg1.win 3).blk t).view.set := by
  have hi0 : (i 0).val < 100000 := idx2_lt0 i
  have hi1 : (i 1).val < 128 := idx2_lt1 i
  have hN : grid1.N = 10 := N_1
  let t : Fin cfg1.N := ⟨(i 0).val / 10000, by show (i 0).val / 10000 < grid1.N; rw [hN]; omega⟩
  obtain ⟨-, -, -, -, -, -, e0, e1⟩ := index_at t
  have ht : t.val = (i 0).val / 10000 := rfl
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    rw [e0, ht]; omega
  | ⟨1, _⟩ =>
    show win1_3.index t (1 : Fin 2) * 128 ≤ (i 1).val ∧ (i 1).val < win1_3.index t (1 : Fin 2) * 128 + 128
    rw [e1]; omega

end Launch1

/-- The output array of launch 1 after its ten points, from the arrays as the launch finds them. -/
theorem final1 (c : Dev nD) :
    (dat1 (F := Ideal) V c).arrAt 3 cfg1.N
      = (toArr (relu (sbaC (ofArr (V c main_v26 : S100000x128.Idx → EReal)) (col (V c main_v15 : S100000x1.Idx → EReal))
          (row (V c main_v27 : S1x128.Idx → EReal)))) : S100000x128.Idx → EReal) :=
  (dat1 (F := Ideal) V c).arrAt_eq_of_cover 3 _ (fun t _ => Launch1.flushed_eq V c t) Launch1.cover

end Cert.KernelIdeal.RegVal

end
-- ==== Proof.Reg2.lean ====
/-
  What the third launch leaves in its output array: row `n` of the hidden array times the second weight matrix, the row
  then scaled by the entry of the scaling column at `n`. Ten blocks of ten thousand rows tile the array.

  The body's arithmetic is read at an entry `(p, q)` of a block first (`payload_apply`): the product with the zero
  accumulator is the sum over the 128 positions of the contracted axis, the recast of the hidden block to its own shape
  and the narrowing of the operands are the identity on the extended reals, and the scaling column spread over the 64
  columns reads its one entry of row `p`. Then the three input blocks are read where the index maps put them in their
  arrays (`block_indices`, `flushed_block`): row `p` of block `t` is row `10000 t + p` of the array, and the weights' one
  block is the whole matrix. So each point writes back the block of ONE function of the whole arrays, and since every row
  lies in the block of exactly the point `row / 10000` (`covered`), the array ends holding that function.
-/
import proofs.«169578_j755914244198_1_alg».proof.Proof.Gen.KernelIdeal.Frame
import proofs.«169578_j755914244198_1_alg».proof.Proof.Spec
import proofs.«169578_j755914244198_1_alg».proof.Proof.LibContraction
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegVal

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

namespace Launch2

open Cert.Lib.Contraction

/-! ## The body's arithmetic at an entry of a block -/

/-- The offsets of the body's whole-block accesses are zero on both axes. -/
theorem zero_offsets : (![0, 0] : Fin 2 → Nat) = fun _ => 0 := funext fun a => by fin_cases a <;> rfl

/-- A one-column array `[a, 1]` spread over `b` columns reads, at `(p, q)`, the column's entry of row `p`. -/
theorem column_broadcast_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At position `k` of the contracted axis the product's left operand is read at row `p`, column `k`. -/
theorem product_lhs_index (p : Fin 10000) (q : Fin 64) (k : Fin 128) :
    dot_S10000x128_S128x64_S10000x64_1_0_0_1_n_n.lhsIdx (ix2 p q)
        ((contrFin dot_S10000x128_S128x64_S10000x64_1_0_0_1_n_n (cl := 1) rfl 128 rfl).symm k) = ix2 p k :=
  funext fun a => Fin.ext (by
    match a with
    | ⟨0, _⟩ => exact lhs_free dot_S10000x128_S128x64_S10000x64_1_0_0_1_n_n (nl := 0) rfl rfl (ix2 p q) _ (by decide)
    | ⟨1, _⟩ => exact lhs_contracted dot_S10000x128_S128x64_S10000x64_1_0_0_1_n_n (cl := 1) rfl 128 rfl (ix2 p q) k)

/-- At position `k` of the contracted axis the product's right operand is read at row `k`, column `q`. -/
theorem product_rhs_index (p : Fin 10000) (q : Fin 64) (k : Fin 128) :
    dot_S10000x128_S128x64_S10000x64_1_0_0_1_n_n.rhsIdx (ix2 p q)
        ((contrFin dot_S10000x128_S128x64_S10000x64_1_0_0_1_n_n (cl := 1) rfl 128 rfl).symm k) = ix2 k q :=
  funext fun a => Fin.ext (by
    match a with
    | ⟨0, _⟩ => exact rhs_contracted dot_S10000x128_S128x64_S10000x64_1_0_0_1_n_n (cl := 1) (cr := 0) rfl rfl 128 rfl (ix2 p q) k
    | ⟨1, _⟩ => exact rhs_free dot_S10000x128_S128x64_S10000x64_1_0_0_1_n_n (nl := 0) (nr := 1) rfl rfl rfl rfl (ix2 p q) _ (by decide))

/-- THE BODY AT `(p, q)`: the sum over `k` of row `p` of the first block times column `q` of the second, times the third
    block's entry of row `p`. -/
theorem payload_apply (x0 : Vec Ideal S10000x128 .f32) (x1 : Vec Ideal S128x64 .f32) (x2 : Vec Ideal S10000x1 .f32)
    (p : Fin 10000) (q : Fin 64) :
    k2_pay1 (F := Ideal) x0 x1 x2 (ix2 p q) = (∑ k : Fin 128, x0 (ix2 p k) * x1 (ix2 k q)) * x2 (ix2 p (0 : Fin 1)) := by
  unfold k2_pay1
  simp only [shapeCast_self]
  refine (mulf_apply _ _ _).trans ?_
  refine congrArg₂ (· * ·) ?_ ?_
  · refine (Ideal.matmul_constant_zero_apply dot_S10000x128_S128x64_S10000x64_1_0_0_1_n_n none _ _ (ix2 p q)).trans ?_
    refine (sum_contr dot_S10000x128_S128x64_S10000x64_1_0_0_1_n_n (cl := 1) rfl 128 rfl _).trans ?_
    refine Finset.sum_congr rfl fun k _ => ?_
    rw [product_lhs_index, product_rhs_index]
    rfl
  · exact column_broadcast_apply x2 _ p q

/-- Entry `(p, q)` of the block computed from blocks whose row `p` is row `n` of the hidden array and of the scaling
    column, and whose weights are the weight array's, is the entry `(n, q)` of the whole product with its rows scaled. -/
theorem block_value (x0 : Vec Ideal S10000x128 .f32) (x1 : Vec Ideal S128x64 .f32) (x2 : Vec Ideal S10000x1 .f32)
    (A0 : S100000x128.Idx → EReal) (A1 : S128x64.Idx → EReal) (A2 : S100000x1.Idx → EReal)
    (n : Fin 100000) (p : Fin 10000) (q : Fin 64)
    (h0 : ∀ k : Fin 128, x0 (ix2 p k) = A0 (ix2 n k))
    (h1 : ∀ k : Fin 128, x1 (ix2 k q) = A1 (ix2 k q))
    (h2 : x2 (ix2 p (0 : Fin 1)) = A2 (ix2 n (0 : Fin 1))) :
    k2_pay1 (F := Ideal) x0 x1 x2 (ix2 p q) = toArr (msC (ofArr A0) (ofArr A1) (col A2)) (ix2 n q) := by
  rw [payload_apply, toArr_ix2, h2]
  unfold msC ofArr col
  exact congrArg (· * A2 (ix2 n (0 : Fin 1))) (Finset.sum_congr rfl fun k _ => by rw [h0 k, h1 k])

/-! ## From the blocks to the array -/

/-- The index maps over the ten points: the hidden rows, the scaling column and the output move together, block row `t`
    at point `t`; the weights stay at block `(0, 0)`. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- The whole product with its rows scaled, as one function of the arrays the launch finds. -/
abbrev product (c : Dev nD) : S100000x64.Idx → EReal :=
  toArr (msC (ofArr (V c main_v28 : S100000x128.Idx → EReal)) (ofArr (V c main_arg5 : S128x64.Idx → EReal))
    (col (V c main_v13 : S100000x1.Idx → EReal)))

/-- WHAT POINT `t` WRITES BACK is block `t` of `product`: entry `(p, q)` of the block is computed from row
    `10000 t + p` of the hidden array and of the scaling column and from the whole weight matrix, and sits at row
    `10000 t + p`, column `q` of the output. -/
theorem flushed_block (c : Dev nD) (t : Fin cfg2.N) :
    (dat2 (F := Ideal) V c).flushed 3 t = ((cfg2.win 3).blk t).view.read (Elt Ideal) (product V c) := by
  show (cfg2.win 3).cut (grid2.coords t) ((dat2 (F := Ideal) V c).after 3 t) = _
  rw [after2_3]
  unfold out2_3
  rw [View.canon_unit_zero zero_offsets]
  simp only [View.ld_unit_zero (S := S10000x128) zero_offsets, View.ld_unit_zero (S := S128x64) zero_offsets,
    View.ld_unit_zero (S := S10000x1) zero_offsets]
  obtain ⟨e00, e01, e10, e11, e20, e21, e30, e31⟩ := block_indices t
  funext j
  obtain ⟨p, q, rfl⟩ : ∃ (p : Fin 10000) (q : Fin 64), j = ix2 p q := ⟨j 0, j 1, eq_ix2 j⟩
  have hp : p.val < 10000 := p.isLt
  have ht : t.val < 10 := t.isLt
  show k2_pay1 (F := Ideal) (iblk2 V c 0 t) (iblk2 V c 1 t) (iblk2 V c 2 t) (ix2 p q)
    = product V c (((cfg2.win 3).blk t).view.emb (ix2 p q))
  refine (block_value (iblk2 V c 0 t) (iblk2 V c 1 t) (iblk2 V c 2 t) (V c main_v28) (V c main_arg5) (V c main_v13)
    ⟨t.val * 10000 + p.val, by omega⟩ p q (fun k => ?_) (fun k => ?_) ?_).trans ?_
  · show V c main_v28 (((cfg2.win 0).blk t).view.emb (ix2 p k)) = _
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 128 + 1 * k.val = k.val; omega
  · show V c main_arg5 (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 64 + 1 * q.val = q.val; omega
  · show V c main_v13 (((cfg2.win 2).blk t).view.emb (ix2 p (0 : Fin 1))) = _
    refine congrArg _ (funext fun a => Fin.ext ?_)
    match a with
    | ⟨0, _⟩ => show win2_2.index t (0 : Fin 2) * 10000 + 1 * p.val = t.val * 10000 + p.val; omega
    | ⟨1, _⟩ => show win2_2.index t (1 : Fin 2) * 1 + 1 * 0 = 0; omega
  · refine congrArg (product V c) (funext fun a => Fin.ext ?_)
    match a with
    | ⟨0, _⟩ => show t.val * 10000 + p.val = win2_3.index t (0 : Fin 2) * 10000 + 1 * p.val; omega
    | ⟨1, _⟩ => show q.val = win2_3.index t (1 : Fin 2) * 64 + 1 * q.val; omega

/-- An index of the output array is in point `t`'s block iff each coordinate is in the block's range on its axis. -/
theorem mem_block (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v29).slice (win2_3.rect t)).set ↔ _
  rw [View.set_slice_whole, Rect.mem_set_unit]
  exact Iff.rfl

/-- Row `r` lies in the block of point `r / 10000`: the ten blocks tile the array. -/
theorem covered (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, by show (i 0).val / 10000 < 10; omega⟩, rfl⟩
  obtain ⟨-, -, -, -, -, -, e30, e31⟩ := block_indices t
  refine ⟨t, flush2_3 t, ?_⟩
  rw [mem_block]
  intro a
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 64 ≤ (i 1).val ∧ (i 1).val < win2_3.index t (1 : Fin 2) * 64 + 64
    omega

end Launch2

variable (V : (c : Dev nD) → (b : Ref sig .tc) → Buf (Elt Ideal) ((c : Thread nD τ).loc b))

/-- The output array of launch 2 after its ten points, from the arrays as the launch finds them. -/
theorem final2 (c : Dev nD) :
    (dat2 (F := Ideal) V c).arrAt 3 cfg2.N
      = (toArr (msC (ofArr (V c main_v28 : S100000x128.Idx → EReal)) (ofArr (V c main_arg5 : S128x64.Idx → EReal))
          (col (V c main_v13 : S100000x1.Idx → EReal))) : S100000x64.Idx → EReal) :=
  (dat2 (F := Ideal) V c).arrAt_eq_of_cover 3 (Launch2.product V c) (fun t _ => Launch2.flushed_block V c t)
    Launch2.covered

end Cert.KernelIdeal.RegVal

end
-- ==== Proof.Reg3.lean ====
/-
  What the last launch leaves in its output array: each row of the aggregated array scaled by the entry of the scaling
  column at that row, and the bias row added. Ten blocks of ten thousand rows tile the array.
-/
import proofs.«169578_j755914244198_1_alg».proof.Proof.Gen.KernelIdeal.Frame
import proofs.«169578_j755914244198_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegVal

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Launch3

/-! ## The body's arithmetic at one entry of a block -/

/-- An access to a whole block starts at offset zero on both axes. -/
theorem offsets_zero : (![0, 0] : Fin 2 → Nat) = fun _ => 0 := funext fun a => by fin_cases a <;> rfl

/-- A one-column array broadcast along its rows reads, at row `p` and column `q`, the column's entry at row `p`. -/
theorem colBroadcast_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's result at row `p`, column `q` of a block: the entry there times the scaling column's entry at row `p`,
    plus the bias row's entry at column `q`. -/
theorem pay_apply (x0 : Vec Ideal S10000x64 .f32) (x1 : Vec Ideal S10000x1 .f32) (x2 : Vec Ideal S1x64 .f32)
    (p : Fin 10000) (q : Fin 64) :
    k3_pay1 x0 x1 x2 (ix2 p q) = x0 (ix2 p q) * x1 (ix2 p (0 : Fin 1)) + x2 (ix2 (0 : Fin 1) q) := by
  unfold k3_pay1
  simp only [shapeCast_self]
  show x0 (ix2 p q) * broadcastTo S10000x64 x1 broadcasts_S10000x1_S10000x64 (ix2 p q)
      + broadcastTo S10000x64 x2 broadcasts_S1x64_S10000x64 (ix2 p q) = _
  rw [colBroadcast_apply, broadcastTo_1b_ab_apply]

/-- If the first two blocks are the rows from `10000 * b` on of the aggregated array `A0` and of the scaling column `A1`,
    and the third is the bias row `A2`, then the body's result at a block entry is `A0` scaled and biased at the array
    entry `10000 * b` rows further down, in the same column. -/
theorem point_value (x0 : Vec Ideal S10000x64 .f32) (x1 : Vec Ideal S10000x1 .f32) (x2 : Vec Ideal S1x64 .f32)
    (A0 : S100000x64.Idx → EReal) (A1 : S100000x1.Idx → EReal) (A2 : S1x64.Idx → EReal) (b : Nat)
    (h0 : ∀ (p : Fin 10000) (q : Fin 64) (n : Fin 100000), n.val = b * 10000 + p.val → x0 (ix2 p q) = A0 (ix2 n q))
    (h1 : ∀ (p : Fin 10000) (n : Fin 100000), n.val = b * 10000 + p.val →
      x1 (ix2 p (0 : Fin 1)) = A1 (ix2 n (0 : Fin 1)))
    (h2 : ∀ q : Fin 64, x2 (ix2 (0 : Fin 1) q) = A2 (ix2 (0 : Fin 1) q))
    (j : S10000x64.Idx) (i : S100000x64.Idx) (hi0 : (i 0).val = b * 10000 + (j 0).val) (hi1 : (i 1).val = (j 1).val) :
    k3_pay1 x0 x1 x2 j = toArr (sbaC (ofArr A0) (col A1) (row A2)) i := by
  obtain ⟨p, q, rfl⟩ : ∃ (p : Fin 10000) (q : Fin 64), j = ix2 p q := ⟨j 0, j 1, eq_ix2 j⟩
  obtain ⟨n, r, rfl⟩ : ∃ (n : Fin 100000) (r : Fin 64), i = ix2 n r := ⟨i 0, i 1, eq_ix2 i⟩
  have hr : r = q := Fin.ext hi1
  subst hr
  rw [pay_apply, toArr_ix2]
  show _ = A0 (ix2 n r) * A1 (ix2 n (0 : Fin 1)) + A2 (ix2 (0 : Fin 1) r)
  rw [h0 p r n hi0, h1 p n hi0, h2 r]

/-! ## The blocks of the three inputs at a grid point -/

/-- The block indices at grid point `t`: the aggregated array, the scaling column and the output each move down one
    block of rows per point and stay in block column zero; the bias row's block is always the whole row. -/
theorem index_at : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Block `t` of the aggregated array is its rows from `10000 * t` on. -/
theorem blk_0_apply (c : Dev nD) (t : Fin cfg3.N) (p : Fin 10000) (q : Fin 64) (n : Fin 100000)
    (hn : n.val = t.val * 10000 + p.val) :
    (iblk3 V c 0 t : Vec Ideal S10000x64 .f32) (ix2 p q) = (V c main_v39 : S100000x64.Idx → EReal) (ix2 n q) := by
  obtain ⟨e0, e1, -⟩ := index_at t
  unfold iblk3
  rw [View.read_apply]
  show (V c main_v39 : S100000x64.Idx → EReal) _ = (V c main_v39 : S100000x64.Idx → EReal) _
  refine congrArg (V c main_v39 : S100000x64.Idx → EReal) ?_
  funext a
  apply Fin.ext
  match a with
  | ⟨0, _⟩ => show win3_0.index t (0 : Fin 2) * 10000 + 1 * p.val = n.val; rw [e0, hn]; omega
  | ⟨1, _⟩ => show win3_0.index t (1 : Fin 2) * 64 + 1 * q.val = q.val; rw [e1]; omega

/-- Block `t` of the scaling column is its rows from `10000 * t` on. -/
theorem blk_1_apply (c : Dev nD) (t : Fin cfg3.N) (p : Fin 10000) (n : Fin 100000)
    (hn : n.val = t.val * 10000 + p.val) :
    (iblk3 V c 1 t : Vec Ideal S10000x1 .f32) (ix2 p (0 : Fin 1))
      = (V c main_v15 : S100000x1.Idx → EReal) (ix2 n (0 : Fin 1)) := by
  obtain ⟨-, -, e0, e1, -⟩ := index_at t
  unfold iblk3
  rw [View.read_apply]
  show (V c main_v15 : S100000x1.Idx → EReal) _ = (V c main_v15 : S100000x1.Idx → EReal) _
  refine congrArg (V c main_v15 : S100000x1.Idx → EReal) ?_
  funext a
  apply Fin.ext
  match a with
  | ⟨0, _⟩ => show win3_1.index t (0 : Fin 2) * 10000 + 1 * p.val = n.val; rw [e0, hn]; omega
  | ⟨1, _⟩ => show win3_1.index t (1 : Fin 2) * 1 + 1 * 0 = 0; rw [e1]

/-- The bias row's block is the bias row at every point. -/
theorem blk_2_apply (c : Dev nD) (t : Fin cfg3.N) (q : Fin 64) :
    (iblk3 V c 2 t : Vec Ideal S1x64 .f32) (ix2 (0 : Fin 1) q)
      = (V c main_v40 : S1x64.Idx → EReal) (ix2 (0 : Fin 1) q) := by
  obtain ⟨-, -, -, -, e0, e1, -⟩ := index_at t
  unfold iblk3
  rw [View.read_apply]
  show (V c main_v40 : S1x64.Idx → EReal) _ = (V c main_v40 : S1x64.Idx → EReal) _
  refine congrArg (V c main_v40 : S1x64.Idx → EReal) ?_
  funext a
  apply Fin.ext
  match a with
  | ⟨0, _⟩ => show win3_2.index t (0 : Fin 2) * 1 + 1 * 0 = 0; rw [e0]
  | ⟨1, _⟩ => show win3_2.index t (1 : Fin 2) * 64 + 1 * q.val = q.val; rw [e1]; omega

/-! ## From the blocks to the array -/

/-- What point `t` writes back is block `t` of one function of the whole arrays: the aggregated array scaled row by
    row, the bias row added. -/
theorem flushed_eq (c : Dev nD) (t : Fin cfg3.N) :
    (dat3 (F := Ideal) V c).flushed 3 t = ((cfg3.win 3).blk t).view.read (Elt Ideal)
      (toArr (sbaC (ofArr (V c main_v39 : S100000x64.Idx → EReal)) (col (V c main_v15 : S100000x1.Idx → EReal))
          (row (V c main_v40 : S1x64.Idx → EReal))) : S100000x64.Idx → EReal) := by
  show (cfg3.win 3).cut (grid3.coords t) ((dat3 V c).after 3 t) = _
  rw [after3_3]
  unfold out3_3
  rw [View.canon_unit_zero offsets_zero]
  simp only [View.ld_unit_zero (S := S10000x64) offsets_zero, View.ld_unit_zero (S := S10000x1) offsets_zero,
    View.ld_unit_zero (S := S1x64) offsets_zero]
  obtain ⟨-, -, -, -, -, -, e0, e1⟩ := index_at t
  funext j
  refine point_value (iblk3 V c 0 t) (iblk3 V c 1 t) (iblk3 V c 2 t) (V c main_v39 : S100000x64.Idx → EReal)
    (V c main_v15 : S100000x1.Idx → EReal) (V c main_v40 : S1x64.Idx → EReal) t.val
    (fun p q n hn => blk_0_apply V c t p q n hn) (fun p n hn => blk_1_apply V c t p n hn) (fun q => blk_2_apply V c t q)
    j (((cfg3.win 3).blk t).view.emb j) ?_ ?_
  · show win3_3.index t (0 : Fin 2) * 10000 + 1 * (j 0).val = t.val * 10000 + (j 0).val
    rw [e0]; omega
  · show win3_3.index t (1 : Fin 2) * 64 + 1 * (j 1).val = (j 1).val
    rw [e1]; omega

/-- An entry of the output array lies in point `t`'s block iff each coordinate lies in the block's range on its axis. -/
theorem mem_blk (t : Fin cfg3.N) (i : S100000x64.Idx) :
    i ∈ ((cfg3.win 3).blk t).view.set ↔ ∀ a : Fin 2, win3_3.index t a * S10000x64.size a ≤ (i a).val
      ∧ (i a).val < win3_3.index t a * S10000x64.size a + S10000x64.size a := by
  show i ∈ ((View.whole main_v41).slice (win3_3.rect t)).set ↔ _
  rw [View.set_slice_whole, Rect.mem_set_unit]
  exact Iff.rfl

/-- Every entry of the output array lies in some point's block: row `r` in the block of point `r / 10000`. -/
theorem cover (i : S100000x64.Idx) :
    ∃ t : Fin cfg3.N, (cfg3.win 3).flush t = true ∧ i ∈ ((cfg3.win 3).blk t).view.set := by
  have hi0 : (i 0).val < 100000 := idx2_lt0 i
  have hi1 : (i 1).val < 64 := idx2_lt1 i
  have hN : grid3.N = 10 := N_3
  let t : Fin cfg3.N := ⟨(i 0).val / 10000, by show (i 0).val / 10000 < grid3.N; rw [hN]; omega⟩
  obtain ⟨-, -, -, -, -, -, e0, e1⟩ := index_at t
  have ht : t.val = (i 0).val / 10000 := rfl
  refine ⟨t, flush3_3 t, ?_⟩
  rw [mem_blk]
  intro a
  match a with
  | ⟨0, _⟩ =>
    show win3_3.index t (0 : Fin 2) * 10000 ≤ (i 0).val ∧ (i 0).val < win3_3.index t (0 : Fin 2) * 10000 + 10000
    rw [e0, ht]; omega
  | ⟨1, _⟩ =>
    show win3_3.index t (1 : Fin 2) * 64 ≤ (i 1).val ∧ (i 1).val < win3_3.index t (1 : Fin 2) * 64 + 64
    rw [e1]; omega

end Launch3

/-- The output array of launch 3 after its ten points, from the arrays as the launch finds them. -/
theorem final3 (c : Dev nD) :
    (dat3 (F := Ideal) V c).arrAt 3 cfg3.N
      = (toArr (sbaC (ofArr (V c main_v39 : S100000x64.Idx → EReal)) (col (V c main_v15 : S100000x1.Idx → EReal))
          (row (V c main_v40 : S1x64.Idx → EReal))) : S100000x64.Idx → EReal) :=
  (dat3 (F := Ideal) V c).arrAt_eq_of_cover 3 _ (fun t _ => Launch3.flushed_eq V c t) Launch3.cover

end Cert.KernelIdeal.RegVal

end
-- ==== Proof.LibRowOps.lean ====
/-
  Row gather and row scatter-add of a node-major array, read by coordinates.

  `x[idx]` along axis 0 of an array `x : [N, D]` at a column of start indices `idx : [E, 1]` gathers whole rows: result
  element `(e, c)` is `x` at row `idx[e, 0]`, read signed and clamped into `[0, N − 1]`, and column `c`
  (`rowGather_apply`). The scatter-add of rows `upd : [E, D]` into `x : [N, D]` at a column of indices adds row `e` of the
  updates into the row its index names, column by column; an index outside `[0, N)` is dropped. At the exact instance
  element `(n, c)` of the result is `x (n, c)` plus the sum, over the `e` whose index read signed is `n`, of `upd (e, c)`
  (`rowScatterAdd_apply`).
-/
import Idealize.ShloMosaic.PureOps.Ideal.Laws
import Idealize.ShloMosaic.Lib.ValueIdx

noncomputable section

open scoped BigOperators

namespace Cert.Lib.RowOps

open Idealize.ShloMosaic Idealize.ShloMosaic.ValueIdx

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The start-indices position at which result position `(e, c)` reads its one start index: row `e`, the single column
    (the index vector has one component, so the component's number is `0`). -/
private theorem rowGather_siIdx {N E D : Nat}
    (wf : GatherDims.WF ⟨2, ![N, D]⟩ ⟨2, ![E, 1]⟩ ⟨2, ![E, D]⟩ [1] [0] [] [0] [] 1 ![1, D]) (e : Fin E) (c : Fin D)
    (k : Fin (rowGatherDims N E D wf).startIndexMap.length) :
    (rowGatherDims N E D wf).siIdx (ix2 e c) k = ix2 e 0 := by
  funext b; refine Fin.ext ?_
  match b with
  | ⟨0, _⟩ => rfl
  | ⟨1, _⟩ =>
    have hk : k.val < 1 := k.isLt
    show k.val = 0
    omega

/-- THE ROW GATHER AT `(e, c)`: the operand at row `idx[e, 0]`, read signed and clamped into `[0, N − 1]`, column `c`. -/
theorem rowGather_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N E D wf) x idx (ix2 e c)
      = x (ix2 (⟨min (idx (ix2 e 0)).toInt.toNat (N - 1), by omega⟩ : Fin N) c) := by
  -- the two sides read `x` at the same position: compare the positions axis by axis
  unfold Host.gather
  congr 1
  funext a
  refine Fin.ext ?_
  match a with
  | ⟨0, _⟩ =>
    -- axis 0 is collapsed and named by the start index map: the clamped start, no batching and no offset coordinate
    show (rowGatherDims N E D wf).start (ix2 e c) idx 0 + (rowGatherDims N E D wf).batchCoord (ix2 e c) 0
      + (rowGatherDims N E D wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (rowGatherDims N E D wf).startIndexMap from List.mem_singleton.mpr rfl),
      rowGather_siIdx]
    rfl
  | ⟨1, _⟩ =>
    -- axis 1 is an offset axis outside the start index map: start 0, no batching, offset the result's column
    show (rowGatherDims N E D wf).start (ix2 e c) idx 1 + (rowGatherDims N E D wf).batchCoord (ix2 e c) 1
      + (rowGatherDims N E D wf).offCoord (ix2 e c) 1 = _
    rw [GatherDims.batchCoord_eq_zero _ _ _ List.not_mem_nil]
    have hs : (rowGatherDims N E D wf).start (ix2 e c) idx 1 = 0 := by
      unfold GatherDims.start
      rw [dif_neg (show (1 : Fin 2) ∉ (rowGatherDims N E D wf).startIndexMap from
        (by decide : (1 : Fin 2) ∉ ([0] : List (Fin 2))))]
    have hk : (1 : Fin 2) ∈ (rowGatherDims N E D wf).sKept :=
      (GatherDims.mem_sKept _ _).mpr ⟨(by decide : (1 : Fin 2) ∉ ([0] : List (Fin 2))), List.not_mem_nil⟩
    have ho : (rowGatherDims N E D wf).offCoord (ix2 e c) 1 = c.val := by
      unfold GatherDims.offCoord
      rw [dif_pos hk]
      rfl
    rw [hs, ho]
    simp only [Nat.zero_add]

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section ScatterCoordinates
variable {N E D w : Nat} (wf : ScatterDims.WF ⟨2, ![N, D]⟩ ⟨2, ![E, 1]⟩ ⟨2, ![E, D]⟩ [1] [0] [0] 1)

/-- The scatter-indices position at which update position `(e, c')` reads its one index: row `e`, the single column. -/
private theorem rowScatter_siIdx (e : Fin E) (c' : Fin D)
    (k : Fin (rowScatterDims N E D wf).scatterDimsToOperandDims.length) :
    (rowScatterDims N E D wf).siIdx (ix2 e c') k = ix2 e 0 := by
  funext b; refine Fin.ext ?_
  match b with
  | ⟨0, _⟩ => rfl
  | ⟨1, _⟩ =>
    have hk : k.val < 1 := k.isLt
    show k.val = 0
    omega

/-- On axis 0 the window starts at the row's index, read signed and not clamped. -/
private theorem rowScatter_start0 (idx : IVec ⟨2, ![E, 1]⟩ w) (e : Fin E) (c' : Fin D) :
    (rowScatterDims N E D wf).start (ix2 e c') idx 0 = (idx (ix2 e 0)).toInt := by
  unfold ScatterDims.start
  rw [dif_pos (show (0 : Fin 2) ∈ (rowScatterDims N E D wf).scatterDimsToOperandDims from List.mem_singleton.mpr rfl),
    rowScatter_siIdx]

/-- Axis 1 is not named by the index map: the window starts at `0`. -/
private theorem rowScatter_start1 (idx : IVec ⟨2, ![E, 1]⟩ w) (e : Fin E) (c' : Fin D) :
    (rowScatterDims N E D wf).start (ix2 e c') idx 1 = 0 := by
  unfold ScatterDims.start
  rw [dif_neg (show (1 : Fin 2) ∉ (rowScatterDims N E D wf).scatterDimsToOperandDims from
    (by decide : (1 : Fin 2) ∉ ([0] : List (Fin 2))))]

/-- Axis 0 is an inserted window axis: its window coordinate is `0`. -/
private theorem rowScatter_window0 (e : Fin E) (c' : Fin D) :
    (rowScatterDims N E D wf).window (ix2 e c') 0 = 0 := by
  unfold ScatterDims.window
  rw [dif_neg]
  intro h
  exact of_decide_eq_true (List.mem_filter.mp h).2 (List.mem_singleton.mpr rfl)

/-- Axis 1 is the operand's one kept axis: its window coordinate is the update's column. -/
private theorem rowScatter_window1 (e : Fin E) (c' : Fin D) :
    (rowScatterDims N E D wf).window (ix2 e c') 1 = c'.val := by
  have hk : (1 : Fin 2) ∈ (rowScatterDims N E D wf).sKept :=
    List.mem_filter.mpr ⟨List.mem_finRange _, decide_eq_true (by decide : (1 : Fin 2) ∉ ([0] : List (Fin 2)))⟩
  unfold ScatterDims.window
  rw [dif_pos hk]
  rfl

/-- An update position `(e, c')` lands on operand position `(n, c)` exactly when its row index, read signed, is `n` and its
    column is `c`: the signed index is neither clamped nor wrapped, so a landing row in range pins it to `n`, and conversely
    `n < N` and `c' < D` put the landing position inside the operand. -/
private theorem rowScatter_resultIdx_iff (idx : IVec ⟨2, ![E, 1]⟩ w) (e : Fin E) (c' : Fin D) (n : Fin N) (c : Fin D) :
    (rowScatterDims N E D wf).resultIdx? (ix2 e c') idx = some (ix2 n c)
      ↔ (idx (ix2 e 0)).toInt = (n.val : Int) ∧ c' = c := by
  unfold ScatterDims.resultIdx?
  constructor
  · intro h
    split at h
    · rename_i hall
      have hf := Option.some.inj h
      have h0 : ((rowScatterDims N E D wf).start (ix2 e c') idx 0
          + ((rowScatterDims N E D wf).window (ix2 e c') 0 : Nat)).toNat = n.val := congrArg (fun f => (f 0).val) hf
      have h1 : ((rowScatterDims N E D wf).start (ix2 e c') idx 1
          + ((rowScatterDims N E D wf).window (ix2 e c') 1 : Nat)).toNat = c.val := congrArg (fun f => (f 1).val) hf
      have hnn := (hall 0).1
      rw [rowScatter_start0, rowScatter_window0] at h0 hnn
      rw [rowScatter_start1, rowScatter_window1] at h1
      exact ⟨by omega, Fin.ext (by omega)⟩
    · exact absurd h (by simp)
  · rintro ⟨hq, rfl⟩
    have hn : n.val < N := n.isLt
    have hc : c'.val < D := c'.isLt
    have hall : ∀ a, 0 ≤ (rowScatterDims N E D wf).start (ix2 e c') idx a + ((rowScatterDims N E D wf).window (ix2 e c') a : Nat)
        ∧ (rowScatterDims N E D wf).start (ix2 e c') idx a + ((rowScatterDims N E D wf).window (ix2 e c') a : Nat)
          < ((⟨2, ![N, D]⟩ : Shape).size a : Nat) := by
      refine Fin.forall_fin_two.mpr ⟨?_, ?_⟩
      · rw [rowScatter_start0, rowScatter_window0]
        show 0 ≤ (idx (ix2 e 0)).toInt + ((0 : Nat) : Int) ∧ (idx (ix2 e 0)).toInt + ((0 : Nat) : Int) < ((N : Nat) : Int)
        omega
      · rw [rowScatter_start1, rowScatter_window1]
        show 0 ≤ (0 : Int) + ((c'.val : Nat) : Int) ∧ (0 : Int) + ((c'.val : Nat) : Int) < ((D : Nat) : Int)
        omega
    rw [dif_pos hall]
    congr 1
    funext a
    refine Fin.ext ?_
    match a with
    | ⟨0, _⟩ =>
      show ((rowScatterDims N E D wf).start (ix2 e c') idx 0
          + ((rowScatterDims N E D wf).window (ix2 e c') 0 : Nat)).toNat = n.val
      rw [rowScatter_start0, rowScatter_window0]
      omega
    | ⟨1, _⟩ =>
      show ((rowScatterDims N E D wf).start (ix2 e c') idx 1
          + ((rowScatterDims N E D wf).window (ix2 e c') 1 : Nat)).toNat = c'.val
      rw [rowScatter_start1, rowScatter_window1]
      omega

end ScatterCoordinates

/-- THE ROW SCATTER-ADD AT `(n, c)`, exact: the operand's element plus the sum of column `c` of the update rows whose
    index, read signed, is `n`. -/
theorem rowScatterAdd_apply {N E D w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ) (n : Fin N) (c : Fin D) :
    Host.scatterAdd (F := Ideal) (rowScatterDims N E D wf) x idx upd (ix2 n c)
      = x (ix2 n c) + ∑ e ∈ Finset.univ.filter (fun e : Fin E => (idx (ix2 e 0)).toInt = (n.val : Int)), upd (ix2 e c) := by
  unfold Host.scatterAdd
  rw [Ideal.hostScatterAdd_def]
  unfold Ideal.hostScatterAdd
  congr 1
  -- the sum over the landing update positions, as a double sum over rows and columns with an indicator …
  rw [Finset.sum_filter, sum_idx2, Finset.sum_filter]
  refine Finset.sum_congr rfl fun e _ => ?_
  -- … in which row `e` contributes its column `c` alone when its index is `n`, and nothing otherwise
  by_cases hq : (idx (ix2 e 0)).toInt = (n.val : Int)
  · rw [if_pos hq, Finset.sum_eq_single c]
    · rw [if_pos ((rowScatter_resultIdx_iff wf idx e c n c).mpr ⟨hq, rfl⟩)]
    · intro c' _ hne
      rw [if_neg fun h => hne ((rowScatter_resultIdx_iff wf idx e c' n c).mp h).2]
    · intro h
      exact absurd (Finset.mem_univ c) h
  · rw [if_neg hq]
    refine Finset.sum_eq_zero fun c' _ => ?_
    rw [if_neg fun h => hq ((rowScatter_resultIdx_iff wf idx e c' n c).mp h).1]

end Cert.Lib.RowOps

end
-- ==== Proof.KAgg.lean ====
/-
  The kernel program's aggregation stages in coordinates: gathering the rows the edges read and adding each into the row
  its edge lands on is, entry by entry, the sum over a node's incoming edges of the rows they read (`aggr`). The zero
  array the sums are added into contributes nothing. A bias laid out as one row reads back as the bias.
-/
import proofs.«169578_j755914244198_1_alg».proof.Proof.KStage
import proofs.«169578_j755914244198_1_alg».proof.Proof.Spec
import proofs.«169578_j755914244198_1_alg».proof.Proof.LibRowOps
import Idealize.ShloMosaic.Lib.Pipeline.Value
import Idealize.ShloMosaic.Lib.ValueLayout

noncomputable section

open scoped BigOperators

namespace Cert.KernelIdeal.Stage

open Cert.KernelIdeal Cert.Gcn Idealize.ShloMosaic Idealize.ShloMosaic.ValueIdx

/-- Aggregation of a 128-column array, in coordinates. -/
theorem agg128_eq (x1 x2 : IVec S1600000 32) (M : FVec Ideal S100000x128 .f32) :
    (agg128 (F := Ideal) x1 x2 M : S100000x128.Idx → EReal) = toArr (aggr (gIdx x1) (sIdx x2) (ofArr M)) := by
  funext i
  obtain ⟨n, c, rfl⟩ : ∃ (n : Fin 100000) (c : Fin 128), i = ix2 n c := ⟨i 0, i 1, eq_ix2 i⟩
  rw [toArr_ix2]
  unfold agg128
  -- the program's dimension numbers are those of a row scatter and a row gather
  have hd : scatter_S100000x128_S1600000x1_S1600000x128_1_0_0_1
      = Cert.Lib.RowOps.rowScatterDims 100000 1600000 128 Facts₀.scatter_S100000x128_S1600000x1_S1600000x128_1_0_0_1_wf := rfl
  have hg : gather_S100000x128_S1600000x1_S1600000x128_1_0_n_n_0_1_1128
      = Cert.Lib.RowOps.rowGatherDims 100000 1600000 128 Facts₀.gather_S100000x128_S1600000x1_S1600000x128_1_0_n_n_0_1_1128_wf := rfl
  -- the entry is the zero array's entry plus the sum over the edges landing on `n`; the zero array's entry is 0
  rw [hd, hg, Cert.Lib.RowOps.rowScatterAdd_apply,
    broadcastInDim_apply _ _ _ _ ix0 (fun a => a.elim0), constant_apply, Ideal.ofBits_zero_f32, zero_add]
  unfold aggr inEdges
  -- edge by edge, the gathered row is the row the edge reads
  refine Finset.sum_congr rfl (fun e _ => ?_)
  rw [Cert.Lib.RowOps.rowGather_apply (by decide)]
  rfl

/-- Aggregation of a 64-column array, in coordinates. -/
theorem agg64_eq (x1 x2 : IVec S1600000 32) (M : FVec Ideal S100000x64 .f32) :
    (agg64 (F := Ideal) x1 x2 M : S100000x64.Idx → EReal) = toArr (aggr (gIdx x1) (sIdx x2) (ofArr M)) := by
  funext i
  obtain ⟨n, c, rfl⟩ : ∃ (n : Fin 100000) (c : Fin 64), i = ix2 n c := ⟨i 0, i 1, eq_ix2 i⟩
  rw [toArr_ix2]
  unfold agg64
  -- the program's dimension numbers are those of a row scatter and a row gather
  have hd : scatter_S100000x64_S1600000x1_S1600000x64_1_0_0_1
      = Cert.Lib.RowOps.rowScatterDims 100000 1600000 64 Facts₀.scatter_S100000x64_S1600000x1_S1600000x64_1_0_0_1_wf := rfl
  have hg : gather_S100000x64_S1600000x1_S1600000x64_1_0_n_n_0_1_164
      = Cert.Lib.RowOps.rowGatherDims 100000 1600000 64 Facts₀.gather_S100000x64_S1600000x1_S1600000x64_1_0_n_n_0_1_164_wf := rfl
  -- the entry is the zero array's entry plus the sum over the edges landing on `n`; the zero array's entry is 0
  rw [hd, hg, Cert.Lib.RowOps.rowScatterAdd_apply,
    broadcastInDim_apply _ _ _ _ ix0 (fun a => a.elim0), constant_apply, Ideal.ofBits_zero_f32, zero_add]
  unfold aggr inEdges
  -- edge by edge, the gathered row is the row the edge reads
  refine Finset.sum_congr rfl (fun e _ => ?_)
  rw [Cert.Lib.RowOps.rowGather_apply (by decide)]
  rfl

/-- The bias row reads back as the bias. -/
theorem biasRow128_row (x4 : FVec Ideal S128 .f32) : row (biasRow128 (F := Ideal) x4 : S1x128.Idx → EReal) = vec x4 := by
  funext c
  unfold row vec biasRow128
  -- `(0, c)` of the row and `c` of the vector have the same row-major position
  exact shapeCast_apply _ _ (ix2 0 c) (ix1 c)
    (by rw [Shape.rowMajor_val_one, Shape.rowMajor_val_two]; show c.val = 0 * 128 + c.val; omega)

/-- The bias row reads back as the bias. -/
theorem biasRow64_row (x6 : FVec Ideal S64 .f32) : row (biasRow64 (F := Ideal) x6 : S1x64.Idx → EReal) = vec x6 := by
  funext c
  unfold row vec biasRow64
  -- `(0, c)` of the row and `c` of the vector have the same row-major position
  exact shapeCast_apply _ _ (ix2 0 c) (ix1 c)
    (by rw [Shape.rowMajor_val_one, Shape.rowMajor_val_two]; show c.val = 0 * 64 + c.val; omega)

end Cert.KernelIdeal.Stage

end
-- ==== Proof.KernelChain.lean ====
/-
  The kernel program's result as one function of its arguments. The run's boundaries are followed from the launch to the
  return: the first host stretch computes the two scaling columns from the edge lists; launch 0 multiplies the features
  by the first weights and scales the rows; the second stretch aggregates; launch 1 scales, adds the bias and takes the
  positive part; launch 2 multiplies by the second weights and scales; the third stretch aggregates; launch 3 scales and
  adds the bias. Every array a later item reads is either an argument, which nothing writes, or the result of exactly
  one earlier item.
-/
import proofs.«169578_j755914244198_1_alg».proof.Proof.Gen.KernelIdeal.Frame
import proofs.«169578_j755914244198_1_alg».proof.Proof.Reg0
import proofs.«169578_j755914244198_1_alg».proof.Proof.Reg1
import proofs.«169578_j755914244198_1_alg».proof.Proof.Reg2
import proofs.«169578_j755914244198_1_alg».proof.Proof.Reg3
import proofs.«169578_j755914244198_1_alg».proof.Proof.KStage
import proofs.«169578_j755914244198_1_alg».proof.Proof.KAgg
import proofs.«169578_j755914244198_1_alg».proof.Proof.Spec
import Idealize.ShloMosaic.Lib.StableHlo.Run

set_option maxRecDepth 16384

noncomputable section

open scoped BigOperators

namespace Cert.KernelIdeal.Chain

open Cert.KernelIdeal Cert.KernelIdeal.Gen Cert.KernelIdeal.Stage Cert.Gcn
open Idealize.ShloMosaic Idealize.ShloMosaic.TcCoe Idealize.ShloMosaic.ValueIdx Idealize.SL.Sem

/-! ## The host stretches, over any contents and any float model

What each stretch leaves in the buffers a later item reads, as the functions of `Stage` applied to what the stretch
found; and the buffers a stretch does not write, which keep what they held. -/

section Host

variable {F : FTy → Type} [FloatOps F]

/-- No operation of the stretch writes the buffer: it keeps its contents. -/
local macro "host_keeps" : tactic =>
  `(tactic| (
    refine StableHlo.after_of_forall_not_mem _ _ (List.forall_iff_forall_mem.mp ?_)
    simp only [hostOps0, hostOps1, hostOps3, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))

/-! ### The first stretch: the two scaling columns -/

theorem ops0_v13 (W : Valuation τ sig (Elt F)) :
    StableHlo.after (hostOps0 (F := F)) W (Proc.devRef .tc main_v13) = rsDeg (F := F) (W (Proc.devRef .tc main_arg1)) := by
  simp only [hostOps0]
  after_results
  rfl

theorem ops0_v15 (W : Valuation τ sig (Elt F)) :
    StableHlo.after (hostOps0 (F := F)) W (Proc.devRef .tc main_v15) = rsDeg (F := F) (W (Proc.devRef .tc main_arg2)) := by
  simp only [hostOps0]
  after_results
  rfl

theorem ops0_arg0 (W : Valuation τ sig (Elt F)) :
    StableHlo.after (hostOps0 (F := F)) W (Proc.devRef .tc main_arg0) = W (Proc.devRef .tc main_arg0) := by host_keeps
theorem ops0_arg1 (W : Valuation τ sig (Elt F)) :
    StableHlo.after (hostOps0 (F := F)) W (Proc.devRef .tc main_arg1) = W (Proc.devRef .tc main_arg1) := by host_keeps
theorem ops0_arg2 (W : Valuation τ sig (Elt F)) :
    StableHlo.after (hostOps0 (F := F)) W (Proc.devRef .tc main_arg2) = W (Proc.devRef .tc main_arg2) := by host_keeps
theorem ops0_arg3 (W : Valuation τ sig (Elt F)) :
    StableHlo.after (hostOps0 (F := F)) W (Proc.devRef .tc main_arg3) = W (Proc.devRef .tc main_arg3) := by host_keeps
theorem ops0_arg4 (W : Valuation τ sig (Elt F)) :
    StableHlo.after (hostOps0 (F := F)) W (Proc.devRef .tc main_arg4) = W (Proc.devRef .tc main_arg4) := by host_keeps
theorem ops0_arg5 (W : Valuation τ sig (Elt F)) :
    StableHlo.after (hostOps0 (F := F)) W (Proc.devRef .tc main_arg5) = W (Proc.devRef .tc main_arg5) := by host_keeps
theorem ops0_arg6 (W : Valuation τ sig (Elt F)) :
    StableHlo.after (hostOps0 (F := F)) W (Proc.devRef .tc main_arg6) = W (Proc.devRef .tc main_arg6) := by host_keeps

/-! ### The second stretch: aggregation of the 128-column array, and the first bias as a row -/

theorem ops1_v26 (W : Valuation τ sig (Elt F)) :
    StableHlo.after (hostOps1 (F := F)) W (Proc.devRef .tc main_v26)
      = agg128 (F := F) (W (Proc.devRef .tc main_arg1)) (W (Proc.devRef .tc main_arg2)) (W (Proc.devRef .tc main_v16)) := by
  simp only [hostOps1]
  after_results
  rfl

theorem ops1_v27 (W : Valuation τ sig (Elt F)) :
    StableHlo.after (hostOps1 (F := F)) W (Proc.devRef .tc main_v27) = biasRow128 (F := F) (W (Proc.devRef .tc main_arg4)) := by
  simp only [hostOps1]
  after_results
  rfl

theorem ops1_v13 (W : Valuation τ sig (Elt F)) :
    StableHlo.after (hostOps1 (F := F)) W (Proc.devRef .tc main_v13) = W (Proc.devRef .tc main_v13) := by host_keeps
theorem ops1_v15 (W : Valuation τ sig (Elt F)) :
    StableHlo.after (hostOps1 (F := F)) W (Proc.devRef .tc main_v15) = W (Proc.devRef .tc main_v15) := by host_keeps
theorem ops1_arg1 (W : Valuation τ sig (Elt F)) :
    StableHlo.after (hostOps1 (F := F)) W (Proc.devRef .tc main_arg1) = W (Proc.devRef .tc main_arg1) := by host_keeps
theorem ops1_arg2 (W : Valuation τ sig (Elt F)) :
    StableHlo.after (hostOps1 (F := F)) W (Proc.devRef .tc main_arg2) = W (Proc.devRef .tc main_arg2) := by host_keeps
theorem ops1_arg5 (W : Valuation τ sig (Elt F)) :
    StableHlo.after (hostOps1 (F := F)) W (Proc.devRef .tc main_arg5) = W (Proc.devRef .tc main_arg5) := by host_keeps
theorem ops1_arg6 (W : Valuation τ sig (Elt F)) :
    StableHlo.after (hostOps1 (F := F)) W (Proc.devRef .tc main_arg6) = W (Proc.devRef .tc main_arg6) := by host_keeps

/-! ### The third stretch: aggregation of the 64-column array, and the second bias as a row -/

theorem ops3_v39 (W : Valuation τ sig (Elt F)) :
    StableHlo.after (hostOps3 (F := F)) W (Proc.devRef .tc main_v39)
      = agg64 (F := F) (W (Proc.devRef .tc main_arg1)) (W (Proc.devRef .tc main_arg2)) (W (Proc.devRef .tc main_v29)) := by
  simp only [hostOps3]
  after_results
  rfl

theorem ops3_v40 (W : Valuation τ sig (Elt F)) :
    StableHlo.after (hostOps3 (F := F)) W (Proc.devRef .tc main_v40) = biasRow64 (F := F) (W (Proc.devRef .tc main_arg6)) := by
  simp only [hostOps3]
  after_results
  rfl

theorem ops3_v15 (W : Valuation τ sig (Elt F)) :
    StableHlo.after (hostOps3 (F := F)) W (Proc.devRef .tc main_v15) = W (Proc.devRef .tc main_v15) := by host_keeps

end Host

/-! ## The walk along the boundaries, over the extended reals

The network's pieces as functions of the launch memory on core `c`; then, boundary by boundary, what each buffer a
later item reads holds there. -/

section Walk

variable (m : (ℓ : Loc nD τ sig) → Buf (Elt Ideal) ℓ) (ρ : Dev nD → PrngReg) (c : Dev nD)

/-- The row each edge reads. -/
abbrev gi : IVec S1600000x1 32 := gIdx (m ((c.tc : Thread nD τ).loc main_arg1))
/-- The node each edge lands on. -/
abbrev si : IVec S1600000x1 32 := sIdx (m ((c.tc : Thread nD τ).loc main_arg2))
/-- The scaling by out-degree. -/
abbrev ro : Fin 100000 → EReal := col (rsDeg (F := Ideal) (m ((c.tc : Thread nD τ).loc main_arg1)) : S100000x1.Idx → EReal)
/-- The scaling by in-degree. -/
abbrev ri : Fin 100000 → EReal := col (rsDeg (F := Ideal) (m ((c.tc : Thread nD τ).loc main_arg2)) : S100000x1.Idx → EReal)
/-- The features. -/
abbrev X0 : Fin 100000 → Fin 128 → EReal := ofArr ((m ((c.tc : Thread nD τ).loc main_arg0)) : S100000x128.Idx → EReal)
/-- The first layer's weights and bias. -/
abbrev Wt1 : Fin 128 → Fin 128 → EReal := ofArr ((m ((c.tc : Thread nD τ).loc main_arg3)) : S128x128.Idx → EReal)
abbrev bs1 : Fin 128 → EReal := vec ((m ((c.tc : Thread nD τ).loc main_arg4)) : S128.Idx → EReal)
/-- The second layer's weights and bias. -/
abbrev Wt2 : Fin 128 → Fin 64 → EReal := ofArr ((m ((c.tc : Thread nD τ).loc main_arg5)) : S128x64.Idx → EReal)
abbrev bs2 : Fin 64 → EReal := vec ((m ((c.tc : Thread nD τ).loc main_arg6)) : S64.Idx → EReal)

/-! ### Boundary 1: the first launch's entry -/

theorem W1_arg0 : W1 (F := Ideal) m ρ c (Proc.devRef .tc main_arg0) = m ((c.tc : Thread nD τ).loc main_arg0) := ops0_arg0 (W0 m ρ c)
theorem W1_arg1 : W1 (F := Ideal) m ρ c (Proc.devRef .tc main_arg1) = m ((c.tc : Thread nD τ).loc main_arg1) := ops0_arg1 (W0 m ρ c)
theorem W1_arg2 : W1 (F := Ideal) m ρ c (Proc.devRef .tc main_arg2) = m ((c.tc : Thread nD τ).loc main_arg2) := ops0_arg2 (W0 m ρ c)
theorem W1_arg3 : W1 (F := Ideal) m ρ c (Proc.devRef .tc main_arg3) = m ((c.tc : Thread nD τ).loc main_arg3) := ops0_arg3 (W0 m ρ c)
theorem W1_arg4 : W1 (F := Ideal) m ρ c (Proc.devRef .tc main_arg4) = m ((c.tc : Thread nD τ).loc main_arg4) := ops0_arg4 (W0 m ρ c)
theorem W1_arg5 : W1 (F := Ideal) m ρ c (Proc.devRef .tc main_arg5) = m ((c.tc : Thread nD τ).loc main_arg5) := ops0_arg5 (W0 m ρ c)
theorem W1_arg6 : W1 (F := Ideal) m ρ c (Proc.devRef .tc main_arg6) = m ((c.tc : Thread nD τ).loc main_arg6) := ops0_arg6 (W0 m ρ c)
theorem W1_v13 : W1 (F := Ideal) m ρ c (Proc.devRef .tc main_v13) = rsDeg (F := Ideal) (m ((c.tc : Thread nD τ).loc main_arg1)) :=
  ops0_v13 (W0 m ρ c)
theorem W1_v15 : W1 (F := Ideal) m ρ c (Proc.devRef .tc main_v15) = rsDeg (F := Ideal) (m ((c.tc : Thread nD τ).loc main_arg2)) :=
  ops0_v15 (W0 m ρ c)

/-! ### Boundary 2: the first launch's exit. Its result is the features times the first weights, rows scaled. -/

theorem W2_v16 : (W2 (F := Ideal) m ρ c (Proc.devRef .tc main_v16) : S100000x128.Idx → EReal)
    = toArr (msC (X0 m c) (Wt1 m c) (ro m c)) := by
  refine ((W2_arr m ρ c 3).trans (RegVal.final0 (V1 m ρ) c)).trans ?_
  have h0 : V1 (F := Ideal) m ρ c main_arg0 = _ := W1_arg0 m ρ c
  have h3 : V1 (F := Ideal) m ρ c main_arg3 = _ := W1_arg3 m ρ c
  have h13 : V1 (F := Ideal) m ρ c main_v13 = _ := W1_v13 m ρ c
  rw [h0, h3, h13]
theorem W2_arg1 : W2 (F := Ideal) m ρ c (Proc.devRef .tc main_arg1) = m ((c.tc : Thread nD τ).loc main_arg1) :=
  (W2_of_ne m ρ c main_arg1 (by decide)).trans (W1_arg1 m ρ c)
theorem W2_arg2 : W2 (F := Ideal) m ρ c (Proc.devRef .tc main_arg2) = m ((c.tc : Thread nD τ).loc main_arg2) :=
  (W2_of_ne m ρ c main_arg2 (by decide)).trans (W1_arg2 m ρ c)
theorem W2_arg4 : W2 (F := Ideal) m ρ c (Proc.devRef .tc main_arg4) = m ((c.tc : Thread nD τ).loc main_arg4) :=
  (W2_of_ne m ρ c main_arg4 (by decide)).trans (W1_arg4 m ρ c)
theorem W2_arg5 : W2 (F := Ideal) m ρ c (Proc.devRef .tc main_arg5) = m ((c.tc : Thread nD τ).loc main_arg5) :=
  (W2_of_ne m ρ c main_arg5 (by decide)).trans (W1_arg5 m ρ c)
theorem W2_arg6 : W2 (F := Ideal) m ρ c (Proc.devRef .tc main_arg6) = m ((c.tc : Thread nD τ).loc main_arg6) :=
  (W2_of_ne m ρ c main_arg6 (by decide)).trans (W1_arg6 m ρ c)
theorem W2_v15 : W2 (F := Ideal) m ρ c (Proc.devRef .tc main_v15) = rsDeg (F := Ideal) (m ((c.tc : Thread nD τ).loc main_arg2)) :=
  (W2_of_ne m ρ c main_v15 (by decide)).trans (W1_v15 m ρ c)
/-- The launch reads the out-degree column and leaves it as it was. -/
theorem W2_v13 : W2 (F := Ideal) m ρ c (Proc.devRef .tc main_v13) = rsDeg (F := Ideal) (m ((c.tc : Thread nD τ).loc main_arg1)) :=
  ((W2_arr m ρ c 2).trans (((dat0 (V1 m ρ) c).arrAt_in 2 rfl _).trans (A_eq0 (V1 m ρ) c 2))).trans (W1_v13 m ρ c)

/-! ### Boundary 3: the second launch's entry. The second stretch has aggregated the first launch's result. -/

theorem W3_v26 : (W3 (F := Ideal) m ρ c (Proc.devRef .tc main_v26) : S100000x128.Idx → EReal)
    = toArr (aggr (gi m c) (si m c) (msC (X0 m c) (Wt1 m c) (ro m c))) := by
  refine (ops1_v26 (W2 m ρ c)).trans ?_
  rw [W2_arg1, W2_arg2, W2_v16, agg128_eq, ofArr_toArr]
theorem W3_v27 : W3 (F := Ideal) m ρ c (Proc.devRef .tc main_v27) = biasRow128 (F := Ideal) (m ((c.tc : Thread nD τ).loc main_arg4)) := by
  refine (ops1_v27 (W2 m ρ c)).trans ?_
  rw [W2_arg4]
theorem W3_v13 : W3 (F := Ideal) m ρ c (Proc.devRef .tc main_v13) = rsDeg (F := Ideal) (m ((c.tc : Thread nD τ).loc main_arg1)) :=
  (ops1_v13 (W2 m ρ c)).trans (W2_v13 m ρ c)
theorem W3_v15 : W3 (F := Ideal) m ρ c (Proc.devRef .tc main_v15) = rsDeg (F := Ideal) (m ((c.tc : Thread nD τ).loc main_arg2)) :=
  (ops1_v15 (W2 m ρ c)).trans (W2_v15 m ρ c)
theorem W3_arg1 : W3 (F := Ideal) m ρ c (Proc.devRef .tc main_arg1) = m ((c.tc : Thread nD τ).loc main_arg1) :=
  (ops1_arg1 (W2 m ρ c)).trans (W2_arg1 m ρ c)
theorem W3_arg2 : W3 (F := Ideal) m ρ c (Proc.devRef .tc main_arg2) = m ((c.tc : Thread nD τ).loc main_arg2) :=
  (ops1_arg2 (W2 m ρ c)).trans (W2_arg2 m ρ c)
theorem W3_arg5 : W3 (F := Ideal) m ρ c (Proc.devRef .tc main_arg5) = m ((c.tc : Thread nD τ).loc main_arg5) :=
  (ops1_arg5 (W2 m ρ c)).trans (W2_arg5 m ρ c)
theorem W3_arg6 : W3 (F := Ideal) m ρ c (Proc.devRef .tc main_arg6) = m ((c.tc : Thread nD τ).loc main_arg6) :=
  (ops1_arg6 (W2 m ρ c)).trans (W2_arg6 m ρ c)

/-! ### Boundary 4: the second launch's exit. Its result is the first layer's positive part. -/

theorem W4_v28 : (W4 (F := Ideal) m ρ c (Proc.devRef .tc main_v28) : S100000x128.Idx → EReal)
    = toArr (relu (kLayer (gi m c) (si m c) (ro m c) (ri m c) (X0 m c) (Wt1 m c) (bs1 m c))) := by
  refine ((W4_arr m ρ c 3).trans (RegVal.final1 (V3 m ρ) c)).trans ?_
  have h26 : (V3 (F := Ideal) m ρ c main_v26 : S100000x128.Idx → EReal) = _ := W3_v26 m ρ c
  have h15 : V3 (F := Ideal) m ρ c main_v15 = _ := W3_v15 m ρ c
  have h27 : V3 (F := Ideal) m ρ c main_v27 = _ := W3_v27 m ρ c
  rw [h26, h15, h27, ofArr_toArr, biasRow128_row]
  rfl
theorem W4_arg1 : W4 (F := Ideal) m ρ c (Proc.devRef .tc main_arg1) = m ((c.tc : Thread nD τ).loc main_arg1) :=
  (W4_of_ne m ρ c main_arg1 (by decide)).trans (W3_arg1 m ρ c)
theorem W4_arg2 : W4 (F := Ideal) m ρ c (Proc.devRef .tc main_arg2) = m ((c.tc : Thread nD τ).loc main_arg2) :=
  (W4_of_ne m ρ c main_arg2 (by decide)).trans (W3_arg2 m ρ c)
theorem W4_arg5 : W4 (F := Ideal) m ρ c (Proc.devRef .tc main_arg5) = m ((c.tc : Thread nD τ).loc main_arg5) :=
  (W4_of_ne m ρ c main_arg5 (by decide)).trans (W3_arg5 m ρ c)
theorem W4_arg6 : W4 (F := Ideal) m ρ c (Proc.devRef .tc main_arg6) = m ((c.tc : Thread nD τ).loc main_arg6) :=
  (W4_of_ne m ρ c main_arg6 (by decide)).trans (W3_arg6 m ρ c)
theorem W4_v13 : W4 (F := Ideal) m ρ c (Proc.devRef .tc main_v13) = rsDeg (F := Ideal) (m ((c.tc : Thread nD τ).loc main_arg1)) :=
  (W4_of_ne m ρ c main_v13 (by decide)).trans (W3_v13 m ρ c)
/-- The launch reads the in-degree column and leaves it as it was. -/
theorem W4_v15 : W4 (F := Ideal) m ρ c (Proc.devRef .tc main_v15) = rsDeg (F := Ideal) (m ((c.tc : Thread nD τ).loc main_arg2)) :=
  ((W4_arr m ρ c 1).trans (((dat1 (V3 m ρ) c).arrAt_in 1 rfl _).trans (A_eq1 (V3 m ρ) c 1))).trans (W3_v15 m ρ c)

/-! ### Boundary 5: the third launch's exit. Its result is the first layer's output times the second weights, rows scaled. -/

theorem W5_v29 : (W5 (F := Ideal) m ρ c (Proc.devRef .tc main_v29) : S100000x64.Idx → EReal)
    = toArr (msC (relu (kLayer (gi m c) (si m c) (ro m c) (ri m c) (X0 m c) (Wt1 m c) (bs1 m c))) (Wt2 m c) (ro m c)) := by
  refine ((W5_arr m ρ c 3).trans (RegVal.final2 (V4 m ρ) c)).trans ?_
  have h28 : (V4 (F := Ideal) m ρ c main_v28 : S100000x128.Idx → EReal) = _ := W4_v28 m ρ c
  have h5 : V4 (F := Ideal) m ρ c main_arg5 = _ := W4_arg5 m ρ c
  have h13 : V4 (F := Ideal) m ρ c main_v13 = _ := W4_v13 m ρ c
  rw [h28, h5, h13, ofArr_toArr]
theorem W5_arg1 : W5 (F := Ideal) m ρ c (Proc.devRef .tc main_arg1) = m ((c.tc : Thread nD τ).loc main_arg1) :=
  (W5_of_ne m ρ c main_arg1 (by decide)).trans (W4_arg1 m ρ c)
theorem W5_arg2 : W5 (F := Ideal) m ρ c (Proc.devRef .tc main_arg2) = m ((c.tc : Thread nD τ).loc main_arg2) :=
  (W5_of_ne m ρ c main_arg2 (by decide)).trans (W4_arg2 m ρ c)
theorem W5_arg6 : W5 (F := Ideal) m ρ c (Proc.devRef .tc main_arg6) = m ((c.tc : Thread nD τ).loc main_arg6) :=
  (W5_of_ne m ρ c main_arg6 (by decide)).trans (W4_arg6 m ρ c)
theorem W5_v15 : W5 (F := Ideal) m ρ c (Proc.devRef .tc main_v15) = rsDeg (F := Ideal) (m ((c.tc : Thread nD τ).loc main_arg2)) :=
  (W5_of_ne m ρ c main_v15 (by decide)).trans (W4_v15 m ρ c)

/-! ### Boundary 6: the last launch's entry. The third stretch has aggregated the third launch's result. -/

theorem W6_v39 : (W6 (F := Ideal) m ρ c (Proc.devRef .tc main_v39) : S100000x64.Idx → EReal)
    = toArr (aggr (gi m c) (si m c)
        (msC (relu (kLayer (gi m c) (si m c) (ro m c) (ri m c) (X0 m c) (Wt1 m c) (bs1 m c))) (Wt2 m c) (ro m c))) := by
  refine (ops3_v39 (W5 m ρ c)).trans ?_
  rw [W5_arg1, W5_arg2, W5_v29, agg64_eq, ofArr_toArr]
theorem W6_v40 : W6 (F := Ideal) m ρ c (Proc.devRef .tc main_v40) = biasRow64 (F := Ideal) (m ((c.tc : Thread nD τ).loc main_arg6)) := by
  refine (ops3_v40 (W5 m ρ c)).trans ?_
  rw [W5_arg6]
theorem W6_v15 : W6 (F := Ideal) m ρ c (Proc.devRef .tc main_v15) = rsDeg (F := Ideal) (m ((c.tc : Thread nD τ).loc main_arg2)) :=
  (ops3_v15 (W5 m ρ c)).trans (W5_v15 m ρ c)

/-! ### Boundary 7: the last launch's exit -/

/-- The result buffer at the last boundary, in the pieces' names. -/
theorem W7_v41 : (W7 (F := Ideal) m ρ c (Proc.devRef .tc main_v41) : S100000x64.Idx → EReal)
    = toArr (kOut (gi m c) (si m c) (ro m c) (ri m c) (X0 m c) (Wt1 m c) (bs1 m c) (Wt2 m c) (bs2 m c)) := by
  refine ((W7_arr m ρ c 3).trans (RegVal.final3 (V6 m ρ) c)).trans ?_
  have h39 : (V6 (F := Ideal) m ρ c main_v39 : S100000x64.Idx → EReal) = _ := W6_v39 m ρ c
  have h15 : V6 (F := Ideal) m ρ c main_v15 = _ := W6_v15 m ρ c
  have h40 : V6 (F := Ideal) m ρ c main_v40 = _ := W6_v40 m ρ c
  rw [h39, h15, h40, ofArr_toArr, biasRow64_row]
  rfl

end Walk

variable (m : (ℓ : Loc nD τ sig) → Buf (Elt Ideal) ℓ) (ρ : Dev nD → PrngReg)

/-- The result buffer at the last boundary is the two-layer network, weights before aggregation, of the arguments. -/
theorem out_val (c : Dev nD) :
    (W7 (F := Ideal) m ρ c (Proc.devRef .tc main_v41) : S100000x64.Idx → EReal)
      = toArr (kOut (gIdx (m ((c.tc : Thread nD τ).loc main_arg1))) (sIdx (m ((c.tc : Thread nD τ).loc main_arg2)))
          (col (rsDeg (F := Ideal) (m ((c.tc : Thread nD τ).loc main_arg1)) : S100000x1.Idx → EReal))
          (col (rsDeg (F := Ideal) (m ((c.tc : Thread nD τ).loc main_arg2)) : S100000x1.Idx → EReal))
          (ofArr ((m ((c.tc : Thread nD τ).loc main_arg0)) : S100000x128.Idx → EReal)) (ofArr ((m ((c.tc : Thread nD τ).loc main_arg3)) : S128x128.Idx → EReal))
          (vec ((m ((c.tc : Thread nD τ).loc main_arg4)) : S128.Idx → EReal)) (ofArr ((m ((c.tc : Thread nD τ).loc main_arg5)) : S128x64.Idx → EReal))
          (vec ((m ((c.tc : Thread nD τ).loc main_arg6)) : S64.Idx → EReal))) :=
  W7_v41 m ρ c

end Cert.KernelIdeal.Chain

end
-- ==== Proof.RefValue.lean ====
/-
  The reference program's result in coordinates: each layer scales the rows of its input by the out-degree column,
  aggregates over the edges, scales by the in-degree column, multiplies by the weights and adds the bias; the positive
  part is taken between the layers. The second layer recomputes the degree columns and the index columns from the same
  edge lists by the same operations, so they are the first layer's.
-/
import proofs.«169578_j755914244198_1_alg».proof.Proof.Gen.ReferenceIdeal.Read
import proofs.«169578_j755914244198_1_alg».proof.Proof.Spec
import proofs.«169578_j755914244198_1_alg».proof.Proof.LibRowOps
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Read Cert.Gcn
open Idealize.ShloMosaic Idealize.ShloMosaic.ValueIdx

/-- The row scatter-add, from a zero array, of the rows a gather reads is the aggregation of the operand. -/
theorem scatter_gather_apply (X Z : FVec Ideal S100000x128 .f32) (gi si : IVec S1600000x1 32)
    (hZ : ∀ i, Z i = 0) (n : Fin 100000) (c : Fin 128) :
    Host.scatterAdd (F := Ideal) scatter_S100000x128_S1600000x1_S1600000x128_1_0_0_1 Z si
        (Host.gather gather_S100000x128_S1600000x1_S1600000x128_1_0_n_n_0_1_1128 X gi) (ix2 n c)
      = aggr gi si (ofArr X) n c := by
  have hg : gather_S100000x128_S1600000x1_S1600000x128_1_0_n_n_0_1_1128
      = Cert.Lib.RowOps.rowGatherDims 100000 1600000 128 _ := rfl
  have hs : scatter_S100000x128_S1600000x1_S1600000x128_1_0_0_1
      = Cert.Lib.RowOps.rowScatterDims 100000 1600000 128 _ := rfl
  rw [hg, hs, Cert.Lib.RowOps.rowScatterAdd_apply, hZ, zero_add]
  unfold aggr inEdges
  refine Finset.sum_congr rfl fun e _ => ?_
  rw [Cert.Lib.RowOps.rowGather_apply (by decide)]
  rfl

/-! ## The recomputed columns of the second layer are the first layer's -/

section Columns
variable {F : FTy → Type} [FloatOps F]

theorem v48_eq (x1 : (⟨S1600000, .i32⟩ : BufTy).Contents (Elt F)) :
    val_main_v48 (F := F) x1 = val_main_v13 (F := F) x1 := rfl
theorem v62_eq (x2 : (⟨S1600000, .i32⟩ : BufTy).Contents (Elt F)) :
    val_main_v62 (F := F) x2 = val_main_v27 (F := F) x2 := rfl
theorem v56_eq (x1 : (⟨S1600000, .i32⟩ : BufTy).Contents (Elt F)) :
    val_main_v56 (F := F) x1 = val_main_v21 (F := F) x1 := rfl
theorem v59_eq (x2 : (⟨S1600000, .i32⟩ : BufTy).Contents (Elt F)) :
    val_main_v59 (F := F) x2 = val_main_v24 (F := F) x2 := rfl

end Columns

/-! ## Index functions of the layout operations at a coordinate pair -/

theorem idx14 (n : Fin 100000) (k : Fin 128) : idx_main_v14 (ix2 n k) = ix2 n 0 :=
  funext fun a => Fin.ext (by match a with | ⟨0, _⟩ => rfl | ⟨1, _⟩ => rfl)
theorem idx28 (n : Fin 100000) (k : Fin 128) : idx_main_v28 (ix2 n k) = ix2 n 0 :=
  funext fun a => Fin.ext (by match a with | ⟨0, _⟩ => rfl | ⟨1, _⟩ => rfl)
theorem idx49 (n : Fin 100000) (k : Fin 128) : idx_main_v49 (ix2 n k) = ix2 n 0 :=
  funext fun a => Fin.ext (by match a with | ⟨0, _⟩ => rfl | ⟨1, _⟩ => rfl)
theorem idx63 (n : Fin 100000) (k : Fin 128) : idx_main_v63 (ix2 n k) = ix2 n 0 :=
  funext fun a => Fin.ext (by match a with | ⟨0, _⟩ => rfl | ⟨1, _⟩ => rfl)
theorem lidx30 (n : Fin 100000) (c k : Fin 128) : lidx_main_v30 (ix2 n c) k = ix2 n k :=
  funext fun a => Fin.ext (by match a with | ⟨0, _⟩ => rfl | ⟨1, _⟩ => rfl)
theorem ridx30 (n : Fin 100000) (c k : Fin 128) : ridx_main_v30 (ix2 n c) k = ix2 k c :=
  funext fun a => Fin.ext (by match a with | ⟨0, _⟩ => rfl | ⟨1, _⟩ => rfl)
theorem lidx65 (n : Fin 100000) (c : Fin 64) (k : Fin 128) : lidx_main_v65 (ix2 n c) k = ix2 n k :=
  funext fun a => Fin.ext (by match a with | ⟨0, _⟩ => rfl | ⟨1, _⟩ => rfl)
theorem ridx65 (n : Fin 100000) (c : Fin 64) (k : Fin 128) : ridx_main_v65 (ix2 n c) k = ix2 k c :=
  funext fun a => Fin.ext (by match a with | ⟨0, _⟩ => rfl | ⟨1, _⟩ => rfl)
theorem idx3132 (n : Fin 100000) (c : Fin 128) : idx_main_v31 (idx_main_v32 (ix2 n c)) = ix1 c :=
  funext fun a => Fin.ext (by match a with | ⟨0, _⟩ => rfl)
theorem idx6667 (n : Fin 100000) (c : Fin 64) : idx_main_v66 (idx_main_v67 (ix2 n c)) = ix1 c :=
  funext fun a => Fin.ext (by match a with | ⟨0, _⟩ => rfl)

/-! ## The first layer -/

/-- The first aggregation: the rows of the input, each scaled by the out-degree column, summed over the incoming edges. -/
theorem v25_apply (x0 : FVec Ideal S100000x128 .f32) (x1 x2 : IVec S1600000 32) (n : Fin 100000) (c : Fin 128) :
    val_main_v25 (F := Ideal) x0 x1 x2 (ix2 n c)
      = aggr (val_main_v21 (F := Ideal) x1) (val_main_v24 (F := Ideal) x2)
          (fun n' k => x0 (ix2 n' k) * col (val_main_v13 (F := Ideal) x1 : S100000x1.Idx → EReal) n') n c := by
  unfold val_main_v25 val_main_v22
  rw [scatter_gather_apply _ _ _ _ (fun i => by
    rw [val_main_v23_apply, val_main_cst_6_apply]; exact Ideal.ofBits_zero_f32)]
  refine congrArg (fun M => aggr _ _ M n c) (funext fun n' => funext fun k => ?_)
  show val_main_v15 (F := Ideal) x0 x1 (ix2 n' k) = _
  rw [val_main_v15_apply, val_main_v14_apply, idx14]
  rfl

/-- The aggregated rows scaled by the in-degree column. -/
theorem v29_apply (x0 : FVec Ideal S100000x128 .f32) (x1 x2 : IVec S1600000 32) (n : Fin 100000) (k : Fin 128) :
    val_main_v29 (F := Ideal) x0 x1 x2 (ix2 n k)
      = aggr (val_main_v21 (F := Ideal) x1) (val_main_v24 (F := Ideal) x2)
          (fun n' k' => x0 (ix2 n' k') * col (val_main_v13 (F := Ideal) x1 : S100000x1.Idx → EReal) n') n k
        * col (val_main_v27 (F := Ideal) x2 : S100000x1.Idx → EReal) n := by
  rw [val_main_v29_apply, val_main_v28_apply, idx28, v25_apply]
  rfl

/-- The first layer before its positive part. -/
theorem v33_apply (x0 : FVec Ideal S100000x128 .f32) (x1 x2 : IVec S1600000 32) (x3 : FVec Ideal S128x128 .f32)
    (x4 : FVec Ideal S128 .f32) (n : Fin 100000) (c : Fin 128) :
    val_main_v33 (F := Ideal) x0 x1 x2 x3 x4 (ix2 n c)
      = rLayer (val_main_v21 (F := Ideal) x1) (val_main_v24 (F := Ideal) x2)
          (col (val_main_v13 (F := Ideal) x1 : S100000x1.Idx → EReal))
          (col (val_main_v27 (F := Ideal) x2 : S100000x1.Idx → EReal))
          (ofArr x0) (ofArr x3) (vec x4) n c := by
  rw [val_main_v33_apply, val_main_v30_apply, val_main_v32_apply, val_main_v31_apply, idx3132, Ideal.addf_def]
  unfold rLayer
  refine congrArg₂ (· + ·) (Finset.sum_congr rfl fun k _ => ?_) rfl
  rw [lidx30, ridx30, v29_apply]
  rfl

/-- The first layer: the positive part of `rLayer`. -/
theorem v34_apply (x0 : FVec Ideal S100000x128 .f32) (x1 x2 : IVec S1600000 32) (x3 : FVec Ideal S128x128 .f32)
    (x4 : FVec Ideal S128 .f32) (n : Fin 100000) (c : Fin 128) :
    val_main_v34 (F := Ideal) x0 x1 x2 x3 x4 (ix2 n c)
      = relu (rLayer (val_main_v21 (F := Ideal) x1) (val_main_v24 (F := Ideal) x2)
          (col (val_main_v13 (F := Ideal) x1 : S100000x1.Idx → EReal))
          (col (val_main_v27 (F := Ideal) x2 : S100000x1.Idx → EReal))
          (ofArr x0) (ofArr x3) (vec x4)) n c := by
  rw [val_main_v34_apply, v33_apply, val_main_call0_v0_apply, val_main_call0_cst_apply, Ideal.ofBits_def,
    Ideal.ofBits_zero_f32, Ideal.maximumf_def]
  rfl

/-! ## The second layer -/

/-- The second aggregation, over the first layer's result and the first layer's columns. -/
theorem v60_apply (x0 : FVec Ideal S100000x128 .f32) (x1 x2 : IVec S1600000 32) (x3 : FVec Ideal S128x128 .f32)
    (x4 : FVec Ideal S128 .f32) (n : Fin 100000) (c : Fin 128) :
    val_main_v60 (F := Ideal) x0 x1 x2 x3 x4 (ix2 n c)
      = aggr (val_main_v21 (F := Ideal) x1) (val_main_v24 (F := Ideal) x2)
          (fun n' k => relu (rLayer (val_main_v21 (F := Ideal) x1) (val_main_v24 (F := Ideal) x2)
              (col (val_main_v13 (F := Ideal) x1 : S100000x1.Idx → EReal))
              (col (val_main_v27 (F := Ideal) x2 : S100000x1.Idx → EReal))
              (ofArr x0) (ofArr x3) (vec x4)) n' k
            * col (val_main_v13 (F := Ideal) x1 : S100000x1.Idx → EReal) n') n c := by
  unfold val_main_v60 val_main_v57
  rw [scatter_gather_apply _ _ _ _ (fun i => by
    rw [val_main_v58_apply, val_main_cst_15_apply]; exact Ideal.ofBits_zero_f32), v56_eq, v59_eq]
  refine congrArg (fun M => aggr _ _ M n c) (funext fun n' => funext fun k => ?_)
  show val_main_v50 (F := Ideal) x0 x1 x2 x3 x4 (ix2 n' k) = _
  rw [val_main_v50_apply, val_main_v49_apply, idx49, v48_eq, v34_apply]
  rfl

/-- The second aggregation scaled by the in-degree column. -/
theorem v64_apply (x0 : FVec Ideal S100000x128 .f32) (x1 x2 : IVec S1600000 32) (x3 : FVec Ideal S128x128 .f32)
    (x4 : FVec Ideal S128 .f32) (n : Fin 100000) (k : Fin 128) :
    val_main_v64 (F := Ideal) x0 x1 x2 x3 x4 (ix2 n k)
      = aggr (val_main_v21 (F := Ideal) x1) (val_main_v24 (F := Ideal) x2)
          (fun n' k' => relu (rLayer (val_main_v21 (F := Ideal) x1) (val_main_v24 (F := Ideal) x2)
              (col (val_main_v13 (F := Ideal) x1 : S100000x1.Idx → EReal))
              (col (val_main_v27 (F := Ideal) x2 : S100000x1.Idx → EReal))
              (ofArr x0) (ofArr x3) (vec x4)) n' k'
            * col (val_main_v13 (F := Ideal) x1 : S100000x1.Idx → EReal) n') n k
        * col (val_main_v27 (F := Ideal) x2 : S100000x1.Idx → EReal) n := by
  rw [val_main_v64_apply, val_main_v63_apply, idx63, v62_eq, v60_apply]
  rfl

/-- The result stage at a coordinate pair. -/
theorem v68_apply (x0 : FVec Ideal S100000x128 .f32) (x1 x2 : IVec S1600000 32) (x3 : FVec Ideal S128x128 .f32)
    (x4 : FVec Ideal S128 .f32) (x5 : FVec Ideal S128x64 .f32) (x6 : FVec Ideal S64 .f32) (n : Fin 100000) (c : Fin 64) :
    val_main_v68 (F := Ideal) x0 x1 x2 x3 x4 x5 x6 (ix2 n c)
      = rOut (val_main_v21 (F := Ideal) x1) (val_main_v24 (F := Ideal) x2)
          (col (val_main_v13 (F := Ideal) x1 : S100000x1.Idx → EReal))
          (col (val_main_v27 (F := Ideal) x2 : S100000x1.Idx → EReal))
          (ofArr x0) (ofArr x3) (vec x4) (ofArr x5) (vec x6) n c := by
  rw [val_main_v68_apply, val_main_v65_apply, val_main_v67_apply, val_main_v66_apply, idx6667, Ideal.addf_def]
  unfold rOut
  refine congrArg₂ (· + ·) (Finset.sum_congr rfl fun k _ => ?_) rfl
  rw [lidx65, ridx65, v64_apply]
  rfl

/-- The reference's result stage is the two-layer network, aggregation before the weights, of the arguments. -/
theorem ref_val (x0 : FVec Ideal S100000x128 .f32) (x1 x2 : IVec S1600000 32) (x3 : FVec Ideal S128x128 .f32)
    (x4 : FVec Ideal S128 .f32) (x5 : FVec Ideal S128x64 .f32) (x6 : FVec Ideal S64 .f32) :
    (val_main_v68 (F := Ideal) x0 x1 x2 x3 x4 x5 x6 : S100000x64.Idx → EReal)
      = toArr (rOut (val_main_v21 (F := Ideal) x1) (val_main_v24 (F := Ideal) x2)
          (col (val_main_v13 (F := Ideal) x1 : S100000x1.Idx → EReal))
          (col (val_main_v27 (F := Ideal) x2 : S100000x1.Idx → EReal))
          (ofArr x0) (ofArr x3) (vec x4) (ofArr x5) (vec x6)) := by
  funext i
  rw [eq_ix2 (n0 := 100000) (n1 := 64) i]
  exact v68_apply x0 x1 x2 x3 x4 x5 x6 (i 0) (i 1)

end Cert.ReferenceIdeal.RefValue

end
-- ==== Proof.Bridge.lean ====
/-
  The two programs compute their degree scaling columns and their gather and scatter index columns from the edge lists by
  the same operations in the same order: the kernel program's stages are the reference's, term for term.
-/
import proofs.«169578_j755914244198_1_alg».proof.Proof.KStage
import proofs.«169578_j755914244198_1_alg».proof.Proof.Gen.ReferenceIdeal.Read

noncomputable section

namespace Cert.Bridge

open Idealize.ShloMosaic

variable {F : FTy → Type} [FloatOps F]

/-- The gather index column. -/
theorem gIdx_eq (x1 : IVec ⟨1, ![1600000]⟩ 32) :
    Cert.KernelIdeal.Stage.gIdx x1 = Cert.ReferenceIdeal.Read.val_main_v21 (F := F) x1 := rfl

/-- The scatter index column. -/
theorem sIdx_eq (x2 : IVec ⟨1, ![1600000]⟩ 32) :
    Cert.KernelIdeal.Stage.sIdx x2 = Cert.ReferenceIdeal.Read.val_main_v24 (F := F) x2 := rfl

/-- The out-degree scaling column. -/
theorem rsOut_eq (x1 : IVec ⟨1, ![1600000]⟩ 32) :
    Cert.KernelIdeal.Stage.rsDeg (F := F) x1 = Cert.ReferenceIdeal.Read.val_main_v13 (F := F) x1 := rfl

/-- The in-degree scaling column. -/
theorem rsIn_eq (x2 : IVec ⟨1, ![1600000]⟩ 32) :
    Cert.KernelIdeal.Stage.rsDeg (F := F) x2 = Cert.ReferenceIdeal.Read.val_main_v27 (F := F) x2 := rfl

end Cert.Bridge

end
-- ==== Proof.Finite.lean ====
/-
  Every entry of the float arguments is a real number: the precondition says each is strictly below +∞ in absolute
  value, and an extended real with that property is neither infinity. The precondition is a conjunction of five
  "all entries" reductions; each conjunct gives the comparison at every index, and the comparison at one index is
  the statement `max x (-x) < ⊤` about that entry.
-/
import proofs.«169578_j755914244198_1_alg».proof.Defs
import proofs.«169578_j755914244198_1_alg».proof.Proof.Gen.KernelIdeal
import proofs.«169578_j755914244198_1_alg».proof.Proof.Gen.Pre_finite_inputs
import proofs.«169578_j755914244198_1_alg».proof.Proof.Spec
import Idealize.ShloMosaic.Lib.ReduceAll
import Idealize.ShloMosaic.Lib.ValueIdx

noncomputable section

namespace Cert.KernelIdeal.Finite

open Cert.KernelIdeal Cert.Gcn
open Idealize.ShloMosaic Idealize.ShloMosaic.TcCoe Idealize.ShloMosaic.ValueIdx Idealize.SL.Sem

/-- The scalar shape has one index. -/
instance : Subsingleton Cert.Pre_finite_inputs.S_.Idx := ⟨fun a b => funext fun d => d.elim0⟩

/-- An extended real whose absolute value lies strictly below +∞ is a real number: at either infinity the
    absolute value is +∞ itself. -/
theorem real_of_abs_lt_top (x : EReal) (hx : max x (-x) < ⊤) : ∃ r : ℝ, x = (r : EReal) := by
  induction x using EReal.rec with
  | bot => simp at hx
  | coe r => exact ⟨r, rfl⟩
  | top => simp at hx

/-- One entry of a comparison `|A| < +∞` being true says that entry of `A` is a real number. -/
theorem real_of_cmp {s : Shape} (A : FVec Ideal s .f32) (hb : Cert.Pre_finite_inputs.S_.BroadcastsInDim s ![]) (i : s.Idx)
    (e : cmpf .olt (Host.absf A) (broadcastInDim s ![] hb (constant Cert.Pre_finite_inputs.S_ .f32 0x7F800000#32)) i = 1#1) :
    ∃ r : ℝ, (A i : EReal) = (r : EReal) := by
  have e' : Ideal.cmp .olt (max (A i : EReal) (-(A i : EReal))) (Ideal.ofBits .f32 0x7F800000#32) = 1#1 := e
  have htop : Ideal.ofBits .f32 0x7F800000#32 = ⊤ := by simp [Ideal.ofBits, Ideal.ieee]
  rw [htop] at e'
  refine real_of_abs_lt_top _ ?_
  by_contra hn
  simp [Ideal.cmp, hn] at e'

/-- Under the precondition the five float arguments hold real numbers only. -/
theorem real_of_pre (m : (ℓ : Loc nD τ sig) → Buf (Elt Ideal) ℓ) (h : Cert.Pre_KernelIdeal m) (c : Dev nD) :
    Real2 (ofArr ((m ((c.tc : Thread nD τ).loc main_arg0)) : S100000x128.Idx → EReal))
    ∧ Real2 (ofArr ((m ((c.tc : Thread nD τ).loc main_arg3)) : S128x128.Idx → EReal))
    ∧ Real1 (vec ((m ((c.tc : Thread nD τ).loc main_arg4)) : S128.Idx → EReal))
    ∧ Real2 (ofArr ((m ((c.tc : Thread nD τ).loc main_arg5)) : S128x64.Idx → EReal))
    ∧ Real1 (vec ((m ((c.tc : Thread nD τ).loc main_arg6)) : S64.Idx → EReal)) := by
  have h0 := congrFun (h c) ValueIdx.ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun n k => ?_, fun n k => ?_, fun k => ?_, fun n k => ?_, fun k => ?_⟩
  · exact real_of_cmp _ _ _ (Host.reduce_andi_all _ _ _ _ ix0 h1 (ix2 n k))
  · exact real_of_cmp _ _ _ (Host.reduce_andi_all _ _ _ _ ix0 h2 (ix2 n k))
  · exact real_of_cmp _ _ _ (Host.reduce_andi_all _ _ _ _ ix0 h3 (ix1 k))
  · exact real_of_cmp _ _ _ (Host.reduce_andi_all _ _ _ _ ix0 h4 (ix2 n k))
  · exact real_of_cmp _ _ _ (Host.reduce_andi_all _ _ _ _ ix0 h5 (ix1 k))

end Cert.KernelIdeal.Finite

end
-- ==== Proof.RoReal.lean ====
/-
  A scaling column holds real numbers: a node's degree is a finite sum of ones, so a natural number; clamped below by
  one it is a real number at least one, and the reciprocal of its square root is a real number.
-/
import proofs.«169578_j755914244198_1_alg».proof.Proof.KStage
import proofs.«169578_j755914244198_1_alg».proof.Proof.Spec
import Idealize.ShloMosaic.Lib.Pipeline.Value
import Idealize.ShloMosaic.Lib.ValueIdx
import Idealize.ShloMosaic.Lib.IdealHost

noncomputable section

open scoped BigOperators

namespace Cert.KernelIdeal.Stage

open Cert.KernelIdeal Cert.Gcn Idealize.ShloMosaic Idealize.ShloMosaic.ValueIdx

/-- A finite sum of ones is a real number. -/
private theorem sum_ones {ι : Type} (S : Finset ι) (f : ι → EReal) (hf : ∀ j, f j = 1) :
    ∃ r : ℝ, ∑ j ∈ S, f j = (r : EReal) := by
  classical
  induction S using Finset.induction_on with
  | empty => exact ⟨0, by rw [Finset.sum_empty, EReal.coe_zero]⟩
  | insert a S ha ih =>
    obtain ⟨r, hs⟩ := ih
    exact ⟨1 + r, by rw [Finset.sum_insert ha, hf, hs, EReal.coe_add, EReal.coe_one]⟩

/-- The reciprocal square root of a positive real number is a real number. -/
private theorem rsqrt_real {r : ℝ} (h : 0 < r) : ∃ q : ℝ, Ideal.rsqrt (r : EReal) = (q : EReal) :=
  ⟨(Real.sqrt r)⁻¹, by rw [Ideal.rsqrt_coe, if_neg (not_lt.2 h.le), if_neg (ne_of_gt h)]⟩

/-- A real number clamped below by one is a real number at least one, and the reciprocal of its square root is a
    real number. -/
private theorem rsqrt_max_one {a : EReal} (ha : ∃ r : ℝ, a = (r : EReal)) :
    ∃ q : ℝ, Ideal.rsqrt (max a 1) = (q : EReal) := by
  obtain ⟨r, rfl⟩ := ha
  rcases le_total r 1 with h | h
  · rw [max_eq_right (by rw [← EReal.coe_one]; exact EReal.coe_le_coe_iff.2 h), ← EReal.coe_one]
    exact rsqrt_real zero_lt_one
  · rw [max_eq_left (by rw [← EReal.coe_one]; exact EReal.coe_le_coe_iff.2 h)]
    exact rsqrt_real (lt_of_lt_of_le zero_lt_one h)

/-- An accumulating scatter of ones into zeros holds, at every index, a finite sum of ones. -/
private theorem scatterAdd_real {s si su : Shape} {w : Nat} {φ : FTy} (d : ScatterDims s si su) (x : FVec Ideal s φ)
    (idx : IVec si w) (upd : FVec Ideal su φ) (hx : ∀ i, x i = 0) (hu : ∀ j, upd j = 1) (i : s.Idx) :
    ∃ r : ℝ, Host.scatterAdd (F := Ideal) d x idx upd i = (r : EReal) := by
  unfold Host.scatterAdd
  rw [Ideal.hostScatterAdd_def]
  unfold Ideal.hostScatterAdd
  rw [hx, zero_add]
  exact sum_ones _ upd hu

/-- The reciprocal square root of a vector clamped below by a vector of ones, read at an index. -/
private theorem rsqrt_max_at {s : Shape} {φ : FTy} (a b : FVec Ideal s φ) (i : s.Idx) (ha : ∃ r : ℝ, a i = (r : EReal))
    (hb : b i = 1) : ∃ q : ℝ, Host.rsqrt (maximumf a b) i = (q : EReal) := by
  have h : Host.rsqrt (maximumf a b) i = Ideal.rsqrt (max (a i) (b i)) := rfl
  rw [h, hb]
  exact rsqrt_max_one ha

/-- Every entry of a degree scaling column is a real number. -/
theorem rsDeg_real (x : IVec S1600000 32) : Real1 (col (rsDeg (F := Ideal) x : S100000x1.Idx → EReal)) := by
  intro n
  unfold col rsDeg
  -- the column at `(n, 0)` is the vector at `n`
  rw [broadcastInDim_apply ![0] Facts₀.bcast_S100000_S100000x1_0 _ (ix2 n (0 : Fin 1)) (ix1 n) (fun a => match a with
    | ⟨0, _⟩ => by show n.val = if (100000 : Nat) = 1 then 0 else n.val; rw [if_neg (by decide)])]
  -- the degree is a sum of ones added into zero; the clamp is against one
  refine rsqrt_max_at _ _ (ix1 n) (scatterAdd_real _ _ _ _ (fun i => ?_) (fun j => ?_) (ix1 n)) ?_
  · rw [broadcastInDim_scalar_apply, constant_apply, Ideal.ofBits_zero_f32]
  · rw [broadcastInDim_scalar_apply, constant_apply, Ideal.ofBits_one_f32]
  · rw [broadcastInDim_scalar_apply, constant_apply, Ideal.ofBits_one_f32]

end Cert.KernelIdeal.Stage

end
-- ==== Proof.lean ====
/-
  A two-layer graph convolution: the kernel program multiplies by each layer's weights BEFORE it aggregates over the
  edges, the reference AFTER. Both normalise by the reciprocal square roots of the clamped out- and in-degrees, which they
  compute from the edge lists by the same operations, and both gather with the same clamped source rows and scatter-add
  onto the same destination rows (an edge whose destination index is out of range lands nowhere, in both).

  The kernel program's run is followed boundary by boundary to one function of its arguments (`Chain.out_val` over the
  four launches' output arrays), the reference's run is read stage by stage (`RefValue.ref_val`), and the two functions
  are the two arrangements `kOut` and `rOut` of one network. Aggregation mixes the node axis, the weights mix the
  feature axis and the degree scalings are diagonal, so over the reals the arrangements agree by exchanging two finite
  sums; on the extended reals that exchange needs every entry real, which the precondition gives for the features,
  weights and biases and a short computation gives for the degree scalings (`out_eq`).
  The ideal pass rewrote nothing, so `preserves` is trivial. The three frames are the generated ones.
-/
import proofs.«169578_j755914244198_1_alg».proof.Defs
import proofs.«169578_j755914244198_1_alg».proof.Proof.Gen.Kernel
import proofs.«169578_j755914244198_1_alg».proof.Proof.Gen.Kernel.Frame
import proofs.«169578_j755914244198_1_alg».proof.Proof.Gen.KernelIdeal
import proofs.«169578_j755914244198_1_alg».proof.Proof.Gen.KernelIdeal.Frame
import proofs.«169578_j755914244198_1_alg».proof.Proof.Gen.ReferenceIdeal
import proofs.«169578_j755914244198_1_alg».proof.Proof.Gen.ReferenceIdeal.Run
import proofs.«169578_j755914244198_1_alg».proof.Proof.Gen.ReferenceIdeal.Read
import proofs.«169578_j755914244198_1_alg».proof.Proof.Gen.Pre_finite_inputs
import proofs.«169578_j755914244198_1_alg».proof.Proof.Spec
import proofs.«169578_j755914244198_1_alg».proof.Proof.SpecLaws
import proofs.«169578_j755914244198_1_alg».proof.Proof.KStage
import proofs.«169578_j755914244198_1_alg».proof.Proof.KernelRun
import proofs.«169578_j755914244198_1_alg».proof.Proof.KernelChain
import proofs.«169578_j755914244198_1_alg».proof.Proof.RefValue
import proofs.«169578_j755914244198_1_alg».proof.Proof.Bridge
import proofs.«169578_j755914244198_1_alg».proof.Proof.Finite
import proofs.«169578_j755914244198_1_alg».proof.Proof.RoReal
import Idealize.ShloMosaic.Adequacy
import Idealize.ShloMosaic.Init

noncomputable section

namespace Cert.Proof

open Idealize.ShloMosaic Idealize.ShloMosaic.TcCoe Idealize.SL.Sem Cert.Gcn

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten by the ideal pass. -/
theorem preserves : Cert.preserves_Kernel_KernelIdeal := trivial

/-- The kernel program ends with its result at `kOut` of its arguments (its run followed to the last boundary), the
    reference with its result at `rOut` of the same arguments (its run read stage by stage); the index and scaling
    columns are the same terms in both, and on real entries `kOut = rOut`. -/
theorem algebraic : Cert.algebraic_KernelIdeal_ReferenceIdeal := by
  intro m ρ m' ρ' hpre hagree
  refine ⟨_, Cert.KernelIdeal.GenRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  obtain ⟨r0, r3, r4, r5, r6⟩ := Cert.KernelIdeal.Finite.real_of_pre m hpre c
  rw [Cert.ReferenceIdeal.Read.val_main_v68_eq, h0, h1, h2, h3, h4, h5, h6, Cert.ReferenceIdeal.RefValue.ref_val,
    Cert.KernelIdeal.Chain.out_val m ρ c, ← Cert.Bridge.gIdx_eq, ← Cert.Bridge.sIdx_eq, ← Cert.Bridge.rsOut_eq, ← Cert.Bridge.rsIn_eq]
  exact congrArg toArr (out_eq _ _ (Cert.KernelIdeal.Stage.rsDeg_real _) (Cert.KernelIdeal.Stage.rsDeg_real _) r0 r3 r4 r5 r6).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
